-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x128 : Shape := ⟨2, ![512, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S800000 32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S800000 32 := broadcastInDim S800000 ![] bcast_S_S800000 main_c_8
  let main_v25 : IVec S800000 1 := cmpi .sge main_arg1 main_v24
  let main_c_9 : IVec S_ 1 := constantI S_ 1 1#1
  let main_v26 : IVec S_ 1 := (fun x v => Host.reduce IntOp.andi x v reducesTo_S800000_S_d0 h_S_) main_v25 main_c_9
  let main_v27 : IVec S_ 1 := andi main_v23 main_v26
  let main_c_10 : IVec S_ 32 := constantI S_ 32 50000#32
  let main_v28 : IVec S800000 32 := broadcastInDim S800000 ![] bcast_S_S800000 main_c_10
  let main_v29 : IVec S800000 1 := cmpi .slt main_arg1 main_v28
  let main_c_11 : IVec S_ 1 := constantI S_ 1 1#1
  let main_v30 : IVec S_ 1 := (fun x v => Host.reduce IntOp.andi x v reducesTo_S800000_S_d0 h_S_) main_v29 main_c_11
  let main_v31 : IVec S_ 1 := andi main_v27 main_v30
  main_v31

def fn {F : FTy → Type} [FloatOps F] (main_arg0 : FVec F S50000x512 .f32) (main_arg1 : IVec S800000 32) (main_arg2 : IVec S800000 32) (main_arg3 : FVec F S512x128 .f32) (main_arg4 : FVec F S128 .f32) (main_arg5 : FVec F S128 .f32) (main_arg6 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg3
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_v13 main_v16
-- ==== Kernel.lean ====
abbrev S50000x512 : Shape := ⟨2, ![50000, 512]⟩
abbrev S800000 : Shape := ⟨1, ![800000]⟩
abbrev S512x128 : Shape := ⟨2, ![512, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S2000x512 : Shape := ⟨2, ![2000, 512]⟩
abbrev S2000x1 : Shape := ⟨2, ![2000, 1]⟩
abbrev S2000x128 : Shape := ⟨2, ![2000, 128]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S2000 : Shape := ⟨1, ![2000]⟩

abbrev nBuf : Space → Nat
  | .hbm => 63
  | .vmem => 16
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S512x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S1, .i32⟩
  | .hbm, ⟨40, _⟩ => ⟨S_, .i32⟩
  | .hbm, ⟨41, _⟩ => ⟨S800000x1, .i32⟩
  | .hbm, ⟨42, _⟩ => ⟨S800000x1, .i1⟩
  | .hbm, ⟨43, _⟩ => ⟨S1x1, .i32⟩
  | .hbm, ⟨44, _⟩ => ⟨S800000x1, .i32⟩
  | .hbm, ⟨45, _⟩ => ⟨S800000x1, .i1⟩
  | .hbm, ⟨46, _⟩ => ⟨S800000x1, .i1⟩
  | .hbm, ⟨47, _⟩ => ⟨S_, .i1⟩
  | .hbm, ⟨48, _⟩ => ⟨S800000, .i1⟩
  | .hbm, ⟨49, _⟩ => ⟨S800000x128, .f32⟩
  | .hbm, ⟨50, _⟩ => ⟨S800000x128, .i1⟩
  | .hbm, ⟨51, _⟩ => ⟨S_, .f32⟩
  | .hbm, ⟨52, _⟩ => ⟨S800000x128, .f32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000x1, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v17 : Ref sig .tc := ⟨.hbm, 53, rfl⟩
abbrev main_cst_6 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  scatter_S50000_S800000x1_S800000_n_0_0_1_wf : ScatterDims.WF S50000 S800000x1 S800000 [] [0] [0] 1
  dot_S2000x512_S512x128_S2000x128_1_0_0_1_n_n_wf : DotDims.WF S2000x512 S512x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x512 : Shape := ⟨2, ![50000, 512]⟩
abbrev S800000 : Shape := ⟨1, ![800000]⟩
abbrev S512x128 : Shape := ⟨2, ![512, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S800000x128 : Shape := ⟨2, ![800000, 128]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S512x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x512, .f32⟩
  | .hbm, ⟨31, _⟩ => ⟨S50000x512, .f32⟩
  | .hbm, ⟨32, _⟩ => ⟨S50000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000, .f32⟩
  | .hbm, ⟨54, _⟩ => ⟨S50000x1, .f32⟩
  | .hbm, ⟨55, _⟩ => ⟨S_, .f32⟩
  | .hbm, ⟨56, _⟩ => ⟨S50000x1, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S50000, .f32⟩
  | .hbm, ⟨63, _⟩ => ⟨S50000x1, .f32⟩
  | .hbm, ⟨64, _⟩ => ⟨S_, .f32⟩
  | .hbm, ⟨65, _⟩ => ⟨S50000x1, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x1, .f32⟩
  | .hbm, ⟨71, _⟩ => ⟨S50000x1, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  scatter_S50000_S800000x1_S800000_n_0_0_1_wf : ScatterDims.WF S50000 S800000x1 S800000 [] [0] [0] 1
  dot_S50000x512_S512x128_S50000x128_1_0_0_1_n_n_wf : DotDims.WF S50000x512 S512x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The two dense stages as whole-array functions on the extended reals, index by index, importing no program.

  * `scaledProduct h w n`: entry `(r, j)` is `(∑ₖ h[r,k] · w[k,j]) · n[r]` — the row `r` of the product `h · w`,
    scaled by that row's out-degree normalisation `n[r]` (a column, read at `(r, 0)`).
  * `normRows a n b g β`: with `s[r,j] = a[r,j] · n[r] + b[j]` (the aggregated messages scaled by the in-degree
    normalisation, plus the bias), `μ[r] = (∑ⱼ s[r,j]) / 128`, `d[r,j] = s[r,j] − μ[r]` and
    `v[r] = (∑ⱼ d[r,j]²) / 128`, entry `(r, j)` is `d[r,j] · rsqrt(v[r] + ε) · g[j] + β[j]`: layer normalisation of
    each row over its 128 features, `ε` the f32 value nearest `1e-5`.
-/
import Idealize.ShloMosaic.PureOps.Ideal
import Idealize.ShloMosaic.Lib.ValueIdx

noncomputable section

namespace Cert.GraphConvLN.Spec

open Idealize.ShloMosaic Idealize.ShloMosaic.ValueIdx

abbrev Nodes : Nat := 50000
abbrev Feat : Nat := 512
abbrev Hid : Nat := 128

abbrev SNF : Shape := ⟨2, ![50000, 512]⟩
abbrev SFH : Shape := ⟨2, ![512, 128]⟩
abbrev SNH : Shape := ⟨2, ![50000, 128]⟩
abbrev SN1 : Shape := ⟨2, ![50000, 1]⟩
abbrev S1H : Shape := ⟨2, ![1, 128]⟩

/-- Row `r` of `h · w`, scaled by `n[r]`. -/
def scaledProduct (h : SNF.Idx → EReal) (w : SFH.Idx → EReal) (n : SN1.Idx → EReal) : SNH.Idx → EReal :=
  fun i => (∑ k : Fin 512, h (ix2 (i 0) k) * w (ix2 k (i 1))) * n (ix2 (i 0) (0 : Fin 1))

/-- The scaled, biased row entry `a[r,j] · n[r] + b[j]`. -/
def scaledRow (a : SNH.Idx → EReal) (n : SN1.Idx → EReal) (b : S1H.Idx → EReal) (r : Fin 50000) (j : Fin 128) : EReal :=
  a (ix2 r j) * n (ix2 r (0 : Fin 1)) + b (ix2 (0 : Fin 1) j)

/-- The row mean `(∑ⱼ s[r,j]) / 128`. -/
def rowMean (a : SNH.Idx → EReal) (n : SN1.Idx → EReal) (b : S1H.Idx → EReal) (r : Fin 50000) : EReal :=
  Ideal.div (∑ j : Fin 128, scaledRow a n b r j) (Ideal.ofBits .f32 0x43000000#32)

/-- The centred entry `s[r,j] − μ[r]`. -/
def centred (a : SNH.Idx → EReal) (n : SN1.Idx → EReal) (b : S1H.Idx → EReal) (r : Fin 50000) (j : Fin 128) : EReal :=
  scaledRow a n b r j - rowMean a n b r

/-- The row variance `(∑ⱼ d[r,j]²) / 128`. -/
def rowVar (a : SNH.Idx → EReal) (n : SN1.Idx → EReal) (b : S1H.Idx → EReal) (r : Fin 50000) : EReal :=
  Ideal.div (∑ j : Fin 128, centred a n b r j * centred a n b r j) (Ideal.ofBits .f32 0x43000000#32)

/-- Layer normalisation of every scaled, biased row. -/
def normRows (a : SNH.Idx → EReal) (n : SN1.Idx → EReal) (b g β : S1H.Idx → EReal) : SNH.Idx → EReal :=
  fun i => centred a n b (i 0) (i 1) * Ideal.rsqrt (rowVar a n b (i 0) + Ideal.ofBits .f32 0x3727C5AC#32)
    * g (ix2 (0 : Fin 1) (i 1)) + β (ix2 (0 : Fin 1) (i 1))

end Cert.GraphConvLN.Spec

end
-- ==== Proof.Region0.lean ====
/-
  The scaled-product region: after its 25 grid points the output array holds, at entry (r, j), row r of the product of the two input arrays scaled by the normalisation column's entry r. Each point writes back the 2000-row block of that one function; the 25 blocks tile the 50000 rows.
-/
import proofs.«430459_j13271448945164_1_alg».proof.Proof.KernelResult
import proofs.«430459_j13271448945164_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.GraphConvLN
open Idealize.ShloMosaic Idealize.ShloMosaic.TcCoe Idealize.ShloMosaic.ValueIdx Idealize.SL.Sem

/-! ## One block's product at an entry

The block's body multiplies a 2000 × 512 block by the whole 512 × 128 array, contracting the 512 axis, and scales
row `p` of the product by entry `p` of a 2000 × 1 column. -/

/-- The zero offsets of a whole-block access, as a constant function. -/
theorem zeroOffsets : (![0, 0] : Fin 2 → Nat) = fun _ => 0 := funext fun a => by fin_cases a <;> rfl

/-- The left factor's row coordinate is the output's row coordinate. -/
theorem lhs_row (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl

/-- The left factor's column coordinate is the contracted index. -/
theorem lhs_col (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q

/-- The right factor's row coordinate is the contracted index. -/
theorem rhs_row (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q

/-- The right factor's column coordinate is the output's column coordinate. -/
theorem rhs_col (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The product into the zero array, at entry `(p, q)`: the sum over the 512 contracted indices. -/
theorem product_apply (a : FVec Ideal S2000x512 .bf16) (b : FVec Ideal S512x128 .bf16) (p : Fin 2000) (q : Fin 128) :
    matmul dot_S2000x512_S512x128_S2000x128_1_0_0_1_n_n none a b (constant (F := Ideal) S2000x128 .f32 0x00000000#32) (ix2 p q)
      = ∑ k : Fin 512, a (ix2 p k) * b (ix2 k q) := by
  show FloatOps.matmul dot_S2000x512_S512x128_S2000x128_1_0_0_1_n_n none a b (constant (F := Ideal) S2000x128 .f32 0x00000000#32) (ix2 p q) = _
  rw [Ideal.matmul_constant_zero_apply, ← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx (ix2 p q) ((contrEquiv1 dot_S2000x512_S512x128_S2000x128_1_0_0_1_n_n 512 rfl rfl).symm k) = ix2 p k := funext fun d => Fin.ext (by
    match d with
    | ⟨0, _⟩ => exact lhs_row _ _
    | ⟨1, _⟩ => exact (lhs_col _ _).trans hk)
  have er : dot_S2000x512_S512x128_S2000x128_1_0_0_1_n_n.rhsIdx (ix2 p q) ((contrEquiv1 dot_S2000x512_S512x128_S2000x128_1_0_0_1_n_n 512 rfl rfl).symm k) = ix2 k q := funext fun d => Fin.ext (by
    match d with
    | ⟨0, _⟩ => exact (rhs_row _ _).trans hk
    | ⟨1, _⟩ => exact rhs_col _ _)
  rw [el, er]

/-- A column spread over the 128 columns reads, at entry `(p, q)`, the column's entry `p`. -/
theorem column_apply (n : FVec Ideal S2000x1 .f32) (p : Fin 2000) (q : Fin 128) :
    broadcastTo S2000x128 n broadcasts_S2000x1_S2000x128 (ix2 p q) = n (ix2 p (0 : Fin 1)) := by
  refine broadcastTo_apply n broadcasts_S2000x1_S2000x128 (ix2 p q) (ix2 p (0 : Fin 1)) fun d => ?_
  match d with
  | ⟨0, _⟩ => rfl
  | ⟨1, _⟩ => rfl

/-- The block's body at entry `(p, q)`: row `p` of the product, times the column's entry `p`. Rounding the factors
    to the narrower format is the identity on the extended reals. -/
theorem payload_apply (x0 : Vec Ideal S2000x512 .f32) (x1 : Vec Ideal S512x128 .f32) (x2 : Vec Ideal S2000x1 .f32)
    (p : Fin 2000) (q : Fin 128) :
    (k0_pay1 x0 x1 x2 : S2000x128.Idx → EReal) (ix2 p q)
      = (∑ k : Fin 512, x0 (ix2 p k) * x1 (ix2 k q)) * x2 (ix2 p (0 : Fin 1)) := by
  unfold k0_pay1
  rw [mulf_apply, product_apply, shapeCast_self, column_apply]
  rfl

variable (V : (c : Dev nD) → (b : Ref sig .tc) → Buf (Elt Ideal) ((c : Thread nD τ).loc b))

/-! ## Where a block sits in its array

At point `t` the row blocks are block `t` of their arrays, the 512 × 128 array is read whole, and no block moves along
the columns. A block's coordinate in the array is the block index times the block's extent plus the coordinate inside. -/

/-- The block indices over the 25 points. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry `(p, k)` of the left factor's block at point `t` is entry `(2000 t + p, k)` of its array. -/
theorem left_block (c : Dev nD) (t : Fin cfg0.N) (p : Fin 2000) (k : Fin 512) (r : Fin 50000)
    (hr : r.val = 2000 * t.val + p.val) :
    (iblk0 V c 0 t : S2000x512.Idx → EReal) (ix2 p k) = (V c main_arg0 : S50000x512.Idx → EReal) (ix2 r k) := by
  obtain ⟨e0, e1, -⟩ := block_indices t
  unfold iblk0
  rw [View.read_apply]
  show (V c main_arg0 : S50000x512.Idx → EReal) _ = _
  congr 1
  funext a
  apply Fin.ext
  match a with
  | ⟨0, _⟩ => show win0_0.index t (0 : Fin 2) * 2000 + 1 * p.val = r.val; omega
  | ⟨1, _⟩ => show win0_0.index t (1 : Fin 2) * 512 + 1 * k.val = k.val; omega

/-- Entry `(k, q)` of the right factor's block is entry `(k, q)` of its array, at every point: the block is the array. -/
theorem right_block (c : Dev nD) (t : Fin cfg0.N) (k : Fin 512) (q : Fin 128) :
    (iblk0 V c 1 t : S512x128.Idx → EReal) (ix2 k q) = (V c main_arg3 : S512x128.Idx → EReal) (ix2 k q) := by
  obtain ⟨-, -, e0, e1, -⟩ := block_indices t
  unfold iblk0
  rw [View.read_apply]
  show (V c main_arg3 : S512x128.Idx → EReal) _ = _
  congr 1
  funext a
  apply Fin.ext
  match a with
  | ⟨0, _⟩ => show win0_1.index t (0 : Fin 2) * 512 + 1 * k.val = k.val; omega
  | ⟨1, _⟩ => show win0_1.index t (1 : Fin 2) * 128 + 1 * q.val = q.val; omega

/-- Entry `p` of the column's block at point `t` is entry `2000 t + p` of the column. -/
theorem column_block (c : Dev nD) (t : Fin cfg0.N) (p : Fin 2000) (r : Fin 50000)
    (hr : r.val = 2000 * t.val + p.val) :
    (iblk0 V c 2 t : S2000x1.Idx → EReal) (ix2 p (0 : Fin 1)) = (V c main_v15 : S50000x1.Idx → EReal) (ix2 r (0 : Fin 1)) := by
  obtain ⟨-, -, -, -, e0, e1, -⟩ := block_indices t
  unfold iblk0
  rw [View.read_apply]
  show (V c main_v15 : S50000x1.Idx → EReal) _ = _
  congr 1
  funext a
  apply Fin.ext
  match a with
  | ⟨0, _⟩ => show win0_2.index t (0 : Fin 2) * 2000 + 1 * p.val = r.val; omega
  | ⟨1, _⟩ => show win0_2.index t (1 : Fin 2) * 1 + 1 * (0 : Fin 1).val = (0 : Fin 1).val; omega

/-! ## What a point writes back -/

/-- The scaled product at entry `(r, q)`. -/
theorem scaledProduct_apply (h : Spec.SNF.Idx → EReal) (w : Spec.SFH.Idx → EReal) (n : Spec.SN1.Idx → EReal)
    (r : Fin 50000) (q : Fin 128) :
    Spec.scaledProduct h w n (ix2 r q) = (∑ k : Fin 512, h (ix2 r k) * w (ix2 k q)) * n (ix2 r (0 : Fin 1)) := rfl

/-- The body's result at entry `j` of the block at point `t` is the scaled product at that entry's place in the array:
    row `2000 t + j₀`, column `j₁`. -/
theorem block_entry (c : Dev nD) (t : Fin cfg0.N) (j : S2000x128.Idx) :
    (k0_pay1 (iblk0 V c 0 t) (iblk0 V c 1 t) (iblk0 V c 2 t) : S2000x128.Idx → EReal) j
      = Spec.scaledProduct (V c main_arg0) (V c main_arg3) (V c main_v15) (((cfg0.win 3).blk t).view.emb j) := by
  obtain ⟨p, q, rfl⟩ : ∃ (p : Fin 2000) (q : Fin 128), j = ix2 p q := ⟨j 0, j 1, eq_ix2 j⟩
  refine (payload_apply (iblk0 V c 0 t) (iblk0 V c 1 t) (iblk0 V c 2 t) p q).trans ?_
  have ht : t.val < 25 := lt_of_lt_of_eq t.isLt N_0
  obtain ⟨-, -, -, -, -, -, e0, e1⟩ := block_indices t
  let r : Fin 50000 := ⟨2000 * t.val + p.val, by omega⟩
  have hr : r.val = 2000 * t.val + p.val := rfl
  have he : ((cfg0.win 3).blk t).view.emb (ix2 p q) = (ix2 r q : S50000x128.Idx) := by
    funext a
    apply Fin.ext
    match a with
    | ⟨0, _⟩ => show win0_3.index t (0 : Fin 2) * 2000 + 1 * p.val = 2000 * t.val + p.val; omega
    | ⟨1, _⟩ => show win0_3.index t (1 : Fin 2) * 128 + 1 * q.val = q.val; omega
  rw [he]
  refine Eq.trans ?_ (scaledProduct_apply _ _ _ r q).symm
  exact congrArg₂ (· * ·)
    (Finset.sum_congr rfl fun k _ => congrArg₂ (· * ·) (left_block V c t p k r hr) (right_block V c t k q))
    (column_block V c t p r hr)

/-- What point `t` writes back is block `t` of the scaled product of the arrays as the region finds them. -/
theorem flushed_eq (c : Dev nD) (t : Fin cfg0.N) :
    (dat0 V c).flushed 3 t
      = ((cfg0.win 3).blk t).view.read (Elt Ideal) (Spec.scaledProduct (V c main_arg0) (V c main_arg3) (V c main_v15)) := by
  show (cfg0.win 3).cut (grid0.coords t) ((dat0 V c).after 3 t) = _
  rw [after0_3]
  unfold out0_3
  rw [View.canon_unit_zero zeroOffsets]
  simp only [View.ld_unit_zero (S := S2000x512) zeroOffsets, View.ld_unit_zero (S := S512x128) zeroOffsets,
    View.ld_unit_zero (S := S2000x1) zeroOffsets]
  funext j
  exact block_entry V c t j

/-! ## The 25 blocks tile the rows -/

/-- An entry of the array lies in point `t`'s block exactly when each coordinate lies in the block's range on its axis. -/
theorem mem_block (t : Fin cfg0.N) (i : S50000x128.Idx) :
    i ∈ ((cfg0.win 3).blk t).view.set
      ↔ ∀ a : Fin 2, win0_3.index t a * S2000x128.size a ≤ (i a).val
          ∧ (i a).val < win0_3.index t a * S2000x128.size a + S2000x128.size a := by
  show i ∈ ((View.whole main_v16).slice (win0_3.rect t)).set ↔ _
  rw [View.set_slice_whole, Rect.mem_set_unit]
  exact Iff.rfl

/-- Row `r` lies in the block of point `r / 2000`, which is written back. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  let t : Fin cfg0.N := ⟨(i 0).val / 2000, by rw [show cfg0.N = 25 from N_0]; omega⟩
  have ht : t.val = (i 0).val / 2000 := rfl
  obtain ⟨-, -, -, -, -, -, e0, e1⟩ := block_indices t
  refine ⟨t, flush0_3 t, ?_⟩
  rw [mem_block]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

/-! ## The array after the region -/

/-- The output array after the region, from the arrays as the region finds them. -/
theorem value (c : Dev nD) :
    ((dat0 V c).arrAt 3 cfg0.N : S50000x128.Idx → EReal)
      = Spec.scaledProduct (V c main_arg0) (V c main_arg3) (V c main_v15) := by
  exact (dat0 V c).arrAt_eq_of_cover 3 (Spec.scaledProduct (V c main_arg0) (V c main_arg3) (V c main_v15))
    (fun t _ => flushed_eq V c t) covered

end Cert.KernelIdeal.Region0

end
-- ==== Proof.Region1.lean ====
/-
  The normalisation region: after its 25 grid points the output array holds the layer normalisation of every row of (aggregate · in-degree normalisation + bias). Each point writes back the 2000-row block of that one function; the 25 blocks tile the 50000 rows.
-/
import proofs.«430459_j13271448945164_1_alg».proof.Proof.KernelResult
import proofs.«430459_j13271448945164_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.GraphConvLN
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## Column layouts and the lane sum, read at an index -/

/-- A column `[a, 1]` broadcast along the lanes to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` viewed as a column `[a, 1]` reads, at `(p, 0)`, the vector's entry `p`: both sit at row-major
    position `p`. -/
theorem shapeCast_a_a1_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- The sum over the 128 lanes of a `[2000, 128]` block, kept as a column: at `(p, 0)` it is `∑ₖ v[p,k]`. -/
theorem laneSum_apply (v : FVec Ideal S2000x128 .f32) (hacc : (0x00000000#32 : BitVec 32) = 0x00000000#32) (p : Fin 2000) :
    shapeCast S2000x1 (multiReduction .add [1] S2000 v 0x00000000#32 reduces_S2000x128_S2000 (.inl rfl) hacc)
        shapeCasts_S2000_S2000x1 (ix2 p (0 : Fin 1))
      = ∑ k : Fin 128, v (ix2 p k) := by
  refine (shapeCast_a_a1_apply _ shapeCasts_S2000_S2000x1 p).trans ?_
  refine (Ideal.multiReduction_add_single v 0x00000000#32 reduces_S2000x128_S2000 (.inl rfl) hacc (ix1 p)).trans ?_
  refine Finset.sum_congr rfl fun k _ => congrArg v ?_
  funext ax
  match ax with
  | ⟨0, _⟩ => rfl
  | ⟨1, _⟩ => rfl

/-- A column `[2000, 1]` spread over the 128 lanes reads its row's entry. -/
theorem colSpread_apply (v : FVec Ideal S2000x1 .f32) (p : Fin 2000) (q : Fin 128) :
    broadcastTo S2000x128 v broadcasts_S2000x1_S2000x128 (ix2 p q) = v (ix2 p (0 : Fin 1)) :=
  broadcastTo_a1_ab_apply v broadcasts_S2000x1_S2000x128 p q

/-- A row `[1, 128]` spread over the 2000 rows reads its lane's entry. -/
theorem rowSpread_apply (v : FVec Ideal S1x128 .f32) (p : Fin 2000) (q : Fin 128) :
    broadcastTo S2000x128 v broadcasts_S1x128_S2000x128 (ix2 p q) = v (ix2 (0 : Fin 1) q) :=
  broadcastTo_1b_ab_apply v broadcasts_S1x128_S2000x128 p q

/-! ## One block of rows: the normalisation written on a `[2000, 128]` block and its column and row operands -/

/-- The block's scaled, biased entry `x0[p,q] · x1[p] + x2[q]`. -/
def blkScaled (x0 : S2000x128.Idx → EReal) (x1 : S2000x1.Idx → EReal) (x2 : S1x128.Idx → EReal) (p : Fin 2000) (q : Fin 128) : EReal :=
  x0 (ix2 p q) * x1 (ix2 p (0 : Fin 1)) + x2 (ix2 (0 : Fin 1) q)

/-- The mean of row `p` of the block over its 128 lanes. -/
def blkMean (x0 : S2000x128.Idx → EReal) (x1 : S2000x1.Idx → EReal) (x2 : S1x128.Idx → EReal) (p : Fin 2000) : EReal :=
  Ideal.div (∑ k : Fin 128, blkScaled x0 x1 x2 p k) (Ideal.ofBits .f32 0x43000000#32)

/-- The centred entry. -/
def blkCentred (x0 : S2000x128.Idx → EReal) (x1 : S2000x1.Idx → EReal) (x2 : S1x128.Idx → EReal) (p : Fin 2000) (q : Fin 128) : EReal :=
  blkScaled x0 x1 x2 p q - blkMean x0 x1 x2 p

/-- The variance of row `p` of the block. -/
def blkVar (x0 : S2000x128.Idx → EReal) (x1 : S2000x1.Idx → EReal) (x2 : S1x128.Idx → EReal) (p : Fin 2000) : EReal :=
  Ideal.div (∑ k : Fin 128, blkCentred x0 x1 x2 p k * blkCentred x0 x1 x2 p k) (Ideal.ofBits .f32 0x43000000#32)

/-- The normalised entry: centred, divided by the root of variance plus `ε`, scaled by `x3[q]`, shifted by `x4[q]`. -/
def blkNorm (x0 : S2000x128.Idx → EReal) (x1 : S2000x1.Idx → EReal) (x2 x3 x4 : S1x128.Idx → EReal) (p : Fin 2000) (q : Fin 128) : EReal :=
  blkCentred x0 x1 x2 p q * Ideal.rsqrt (blkVar x0 x1 x2 p + Ideal.ofBits .f32 0x3727C5AC#32)
    * x3 (ix2 (0 : Fin 1) q) + x4 (ix2 (0 : Fin 1) q)

/-! ## The body's stored value at an index -/

/-- A vector's reciprocal square root reads the element's. -/
theorem rsqrtVec_apply {s : Shape} {φ : FTy} (a : FVec Ideal s φ) (i : s.Idx) : rsqrt a i = Ideal.rsqrt (a i) := rfl

/-- The scaled, biased block `x0 · (x1 over the lanes) + (x2 over the rows)` at `(p, q)`. -/
theorem scaledVec_apply (x0 : Vec Ideal S2000x128 .f32) (x1 : Vec Ideal S2000x1 .f32) (x2 : Vec Ideal S1x128 .f32)
    (p : Fin 2000) (q : Fin 128) :
    (addf (mulf x0 (broadcastTo S2000x128 x1 broadcasts_S2000x1_S2000x128))
        (broadcastTo S2000x128 x2 broadcasts_S1x128_S2000x128) : FVec Ideal S2000x128 .f32) (ix2 p q)
      = blkScaled x0 x1 x2 p q := by
  rw [addf_apply, mulf_apply, colSpread_apply, rowSpread_apply]
  rfl

/-- A block's lane sums, as a column, divided by a constant: at `(p, 0)` it is `(∑ₖ s[p,k]) / c`. -/
theorem rowAvg_apply (s : FVec Ideal S2000x128 .f32) (w : BitVec 32) (hacc : (0x00000000#32 : BitVec 32) = 0x00000000#32)
    (p : Fin 2000) :
    divf (shapeCast S2000x1 (multiReduction .add [1] S2000 s 0x00000000#32 reduces_S2000x128_S2000 (.inl rfl) hacc)
          shapeCasts_S2000_S2000x1)
        (broadcast S2000x1 (FloatOps.ofBits (F := Ideal) .f32 w)) (ix2 p (0 : Fin 1))
      = Ideal.div (∑ k : Fin 128, s (ix2 p k)) (Ideal.ofBits .f32 w) := by
  rw [divf_apply, laneSum_apply, broadcast_apply]
  rfl

/-- The scaled block minus its row means (spread back over the lanes) at `(p, q)`. -/
theorem centredVec_apply (x0 : Vec Ideal S2000x128 .f32) (x1 : Vec Ideal S2000x1 .f32) (x2 : Vec Ideal S1x128 .f32)
    (hacc : (0x00000000#32 : BitVec 32) = 0x00000000#32) (p : Fin 2000) (q : Fin 128) :
    subf
        (addf (mulf x0 (broadcastTo S2000x128 x1 broadcasts_S2000x1_S2000x128))
          (broadcastTo S2000x128 x2 broadcasts_S1x128_S2000x128))
        (broadcastTo S2000x128
          (divf
            (shapeCast S2000x1
              (multiReduction .add [1] S2000
                (addf (mulf x0 (broadcastTo S2000x128 x1 broadcasts_S2000x1_S2000x128))
                  (broadcastTo S2000x128 x2 broadcasts_S1x128_S2000x128))
                0x00000000#32 reduces_S2000x128_S2000 (.inl rfl) hacc)
              shapeCasts_S2000_S2000x1)
            (broadcast S2000x1 (FloatOps.ofBits (F := Ideal) .f32 0x43000000#32)))
          broadcasts_S2000x1_S2000x128) (ix2 p q)
      = blkCentred x0 x1 x2 p q := by
  rw [subf_apply, colSpread_apply, rowAvg_apply, scaledVec_apply]
  unfold blkCentred blkMean
  exact congrArg (fun z => blkScaled x0 x1 x2 p q - Ideal.div z (Ideal.ofBits .f32 0x43000000#32))
    (Finset.sum_congr rfl fun k _ => scaledVec_apply x0 x1 x2 p k)

/-- From a centred block `d`: the column `rsqrt((∑ₖ d[p,k]²) / 128 + ε)` at `(p, 0)`. -/
theorem invDevVec_apply (d : FVec Ideal S2000x128 .f32) (hacc : (0x00000000#32 : BitVec 32) = 0x00000000#32) (p : Fin 2000) :
    rsqrt
        (addf
          (divf
            (shapeCast S2000x1
              (multiReduction .add [1] S2000 (mulf d d) 0x00000000#32 reduces_S2000x128_S2000 (.inl rfl) hacc)
              shapeCasts_S2000_S2000x1)
            (broadcast S2000x1 (FloatOps.ofBits (F := Ideal) .f32 0x43000000#32)))
          (broadcast S2000x1 (FloatOps.ofBits (F := Ideal) .f32 0x3727C5AC#32))) (ix2 p (0 : Fin 1))
      = Ideal.rsqrt (Ideal.div (∑ k : Fin 128, d (ix2 p k) * d (ix2 p k)) (Ideal.ofBits .f32 0x43000000#32)
          + Ideal.ofBits .f32 0x3727C5AC#32) := by
  rw [rsqrtVec_apply, addf_apply, rowAvg_apply, broadcast_apply]
  rfl

/-- The body's stored value at `(p, q)` is the block normalisation of its five loaded operands. -/
theorem payload_apply (x0 : Vec Ideal S2000x128 .f32) (x1 : Vec Ideal S2000x1 .f32) (x2 x3 x4 : Vec Ideal S1x128 .f32)
    (p : Fin 2000) (q : Fin 128) : k1_pay1 x0 x1 x2 x3 x4 (ix2 p q) = blkNorm x0 x1 x2 x3 x4 p q := by
  unfold k1_pay1
  simp only [shapeCast_self]
  rw [addf_apply, mulf_apply, mulf_apply, rowSpread_apply, rowSpread_apply, colSpread_apply, centredVec_apply,
    invDevVec_apply]
  unfold blkNorm blkVar
  refine congrArg (fun z => blkCentred x0 x1 x2 p q
      * Ideal.rsqrt (Ideal.div z (Ideal.ofBits .f32 0x43000000#32) + Ideal.ofBits .f32 0x3727C5AC#32)
      * x3 (ix2 (0 : Fin 1) q) + x4 (ix2 (0 : Fin 1) q)) ?_
  refine Finset.sum_congr rfl fun k _ => ?_
  rw [centredVec_apply]

/-! ## A block of rows against the whole-array function -/

/-- Row `p` of a block whose operands are row `r` of the aggregate, row `r` of the normalisation column and the three
    parameter rows: the block normalisation at `(p, q)` is the whole-array one at `(r, q)`. Sums of equal terms over
    the same 128 lanes, stage by stage. -/
theorem blkNorm_eq_normRows (a : S50000x128.Idx → EReal) (n : S50000x1.Idx → EReal) (b g β : S1x128.Idx → EReal)
    (x0 : S2000x128.Idx → EReal) (x1 : S2000x1.Idx → EReal) (x2 x3 x4 : S1x128.Idx → EReal) (p : Fin 2000) (r : Fin 50000)
    (h0 : ∀ k : Fin 128, x0 (ix2 p k) = a (ix2 r k)) (h1 : x1 (ix2 p (0 : Fin 1)) = n (ix2 r (0 : Fin 1)))
    (h2 : ∀ k : Fin 128, x2 (ix2 (0 : Fin 1) k) = b (ix2 (0 : Fin 1) k))
    (h3 : ∀ k : Fin 128, x3 (ix2 (0 : Fin 1) k) = g (ix2 (0 : Fin 1) k))
    (h4 : ∀ k : Fin 128, x4 (ix2 (0 : Fin 1) k) = β (ix2 (0 : Fin 1) k)) (q : Fin 128) :
    blkNorm x0 x1 x2 x3 x4 p q = Spec.normRows a n b g β (ix2 r q) := by
  have es : ∀ k : Fin 128, blkScaled x0 x1 x2 p k = Spec.scaledRow a n b r k := fun k => by
    unfold blkScaled Spec.scaledRow
    rw [h0, h1, h2]
  have em : blkMean x0 x1 x2 p = Spec.rowMean a n b r := by
    unfold blkMean Spec.rowMean
    rw [Finset.sum_congr rfl fun k _ => es k]
  have ec : ∀ k : Fin 128, blkCentred x0 x1 x2 p k = Spec.centred a n b r k := fun k => by
    unfold blkCentred Spec.centred
    rw [es, em]
  have ev : blkVar x0 x1 x2 p = Spec.rowVar a n b r := by
    unfold blkVar Spec.rowVar
    rw [Finset.sum_congr rfl fun k _ => by rw [ec k]]
  unfold blkNorm
  rw [ec, ev, h3, h4]
  rfl

/-- So the body's stored value at `(p, q)`, for such operands, is the whole-array function at `(r, q)`. -/
theorem stored_eq_normRows (a : S50000x128.Idx → EReal) (n : S50000x1.Idx → EReal) (b g β : S1x128.Idx → EReal)
    (x0 : Vec Ideal S2000x128 .f32) (x1 : Vec Ideal S2000x1 .f32) (x2 x3 x4 : Vec Ideal S1x128 .f32) (p : Fin 2000) (r : Fin 50000)
    (h0 : ∀ k : Fin 128, x0 (ix2 p k) = a (ix2 r k)) (h1 : x1 (ix2 p (0 : Fin 1)) = n (ix2 r (0 : Fin 1)))
    (h2 : ∀ k : Fin 128, x2 (ix2 (0 : Fin 1) k) = b (ix2 (0 : Fin 1) k))
    (h3 : ∀ k : Fin 128, x3 (ix2 (0 : Fin 1) k) = g (ix2 (0 : Fin 1) k))
    (h4 : ∀ k : Fin 128, x4 (ix2 (0 : Fin 1) k) = β (ix2 (0 : Fin 1) k)) (q : Fin 128) :
    k1_pay1 x0 x1 x2 x3 x4 (ix2 p q) = Spec.normRows a n b g β (ix2 r q) :=
  (payload_apply x0 x1 x2 x3 x4 p q).trans (blkNorm_eq_normRows a n b g β x0 x1 x2 x3 x4 p r h0 h1 h2 h3 h4 q)

/-! ## The 25 grid points: which block each window holds -/

theorem zero_offsets : (![0, 0] : Fin 2 → Nat) = fun _ => 0 := funext fun a => by fin_cases a <;> rfl

/-- The windows' index maps, decided over the 25 grid points: at point `t` the aggregate, the normalisation column and the
    output are on row block `t`, column block `0`; the three parameter rows stay on block `(0, 0)`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## Each input block read as rows of its array

A block's coordinate on an axis is its index there times the block's extent plus the coordinate inside the block. -/

/-- The aggregate's block at point `t`, row `p`, is the array's row `2000 t + p`. -/
theorem aggBlock_apply (c : Dev nD) (t : Fin cfg1.N) (p : Fin 2000) (k : Fin 128) (r : Fin 50000)
    (hr : r.val = t.val * 2000 + p.val) :
    iblk1 V c 0 t (ix2 p k) = (V c main_v20 : S50000x128.Idx → EReal) (ix2 r k) := by
  obtain ⟨e0, e1, -⟩ := index_facts t
  show (V c main_v20 : S50000x128.Idx → EReal) (((cfg1.win 0).blk t).view.emb (ix2 p k)) = _
  refine congrArg _ (funext fun ax => Fin.ext ?_)
  match ax with
  | ⟨0, _⟩ => show win1_0.index t (0 : Fin 2) * 2000 + 1 * p.val = r.val; omega
  | ⟨1, _⟩ => show win1_0.index t (1 : Fin 2) * 128 + 1 * k.val = k.val; omega

/-- The normalisation column's block at point `t`, row `p`, is the column's row `2000 t + p`. -/
theorem colBlock_apply (c : Dev nD) (t : Fin cfg1.N) (p : Fin 2000) (r : Fin 50000)
    (hr : r.val = t.val * 2000 + p.val) :
    iblk1 V c 1 t (ix2 p (0 : Fin 1)) = (V c main_v21 : S50000x1.Idx → EReal) (ix2 r (0 : Fin 1)) := by
  obtain ⟨-, -, e0, e1, -⟩ := index_facts t
  show (V c main_v21 : S50000x1.Idx → EReal) (((cfg1.win 1).blk t).view.emb (ix2 p (0 : Fin 1))) = _
  refine congrArg _ (funext fun ax => Fin.ext ?_)
  match ax with
  | ⟨0, _⟩ => show win1_1.index t (0 : Fin 2) * 2000 + 1 * p.val = r.val; omega
  | ⟨1, _⟩ => show win1_1.index t (1 : Fin 2) * 1 + 1 * 0 = 0; omega

/-- The bias row's block, at every point, is the whole row. -/
theorem biasBlock_apply (c : Dev nD) (t : Fin cfg1.N) (k : Fin 128) :
    iblk1 V c 2 t (ix2 (0 : Fin 1) k) = (V c main_v22 : S1x128.Idx → EReal) (ix2 (0 : Fin 1) k) := by
  obtain ⟨-, -, -, -, e0, e1, -⟩ := index_facts t
  show (V c main_v22 : S1x128.Idx → EReal) (((cfg1.win 2).blk t).view.emb (ix2 (0 : Fin 1) k)) = _
  refine congrArg _ (funext fun ax => Fin.ext ?_)
  match ax with
  | ⟨0, _⟩ => show win1_2.index t (0 : Fin 2) * 1 + 1 * 0 = 0; omega
  | ⟨1, _⟩ => show win1_2.index t (1 : Fin 2) * 128 + 1 * k.val = k.val; omega

/-- The scale row's block, at every point, is the whole row. -/
theorem scaleBlock_apply (c : Dev nD) (t : Fin cfg1.N) (k : Fin 128) :
    iblk1 V c 3 t (ix2 (0 : Fin 1) k) = (V c main_v23 : S1x128.Idx → EReal) (ix2 (0 : Fin 1) k) := by
  obtain ⟨-, -, -, -, -, -, e0, e1, -⟩ := index_facts t
  show (V c main_v23 : S1x128.Idx → EReal) (((cfg1.win 3).blk t).view.emb (ix2 (0 : Fin 1) k)) = _
  refine congrArg _ (funext fun ax => Fin.ext ?_)
  match ax with
  | ⟨0, _⟩ => show win1_3.index t (0 : Fin 2) * 1 + 1 * 0 = 0; omega
  | ⟨1, _⟩ => show win1_3.index t (1 : Fin 2) * 128 + 1 * k.val = k.val; omega

/-- The shift row's block, at every point, is the whole row. -/
theorem shiftBlock_apply (c : Dev nD) (t : Fin cfg1.N) (k : Fin 128) :
    iblk1 V c 4 t (ix2 (0 : Fin 1) k) = (V c main_v24 : S1x128.Idx → EReal) (ix2 (0 : Fin 1) k) := by
  obtain ⟨-, -, -, -, -, -, -, -, e0, e1, -⟩ := index_facts t
  show (V c main_v24 : S1x128.Idx → EReal) (((cfg1.win 4).blk t).view.emb (ix2 (0 : Fin 1) k)) = _
  refine congrArg _ (funext fun ax => Fin.ext ?_)
  match ax with
  | ⟨0, _⟩ => show win1_4.index t (0 : Fin 2) * 1 + 1 * 0 = 0; omega
  | ⟨1, _⟩ => show win1_4.index t (1 : Fin 2) * 128 + 1 * k.val = k.val; omega

/-! ## What a point writes back, the blocks' cover, and the array -/

/-- What point `t` writes back is block `t` of the whole-array normalisation of the arrays as the region finds them:
    the stored value at `(p, q)` reads the aggregate and the normalisation column at row `2000 t + p`, which is the
    row the output's block puts `(p, q)` on. -/
theorem flushed_eq (c : Dev nD) (t : Fin cfg1.N) :
    (dat1 V c).flushed 5 t = ((cfg1.win 5).blk t).view.read (Elt Ideal)
      (Spec.normRows (V c main_v20) (V c main_v21) (V c main_v22) (V c main_v23) (V c main_v24)) := by
  show (cfg1.win 5).cut (grid1.coords t) ((dat1 V c).after 5 t) = _
  rw [after1_5]
  unfold out1_5
  rw [View.canon_unit_zero zero_offsets]
  simp only [View.ld_unit_zero (S := S2000x128) zero_offsets, View.ld_unit_zero (S := S2000x1) zero_offsets,
    View.ld_unit_zero (S := S1x128) zero_offsets]
  have ht : t.val < 25 := lt_of_lt_of_eq t.isLt N_1
  obtain ⟨-, -, -, -, -, -, -, -, -, -, e0, e1⟩ := index_facts t
  funext j
  obtain ⟨p, q, rfl⟩ : ∃ (p : Fin 2000) (q : Fin 128), j = ix2 p q := ⟨j 0, j 1, eq_ix2 j⟩
  have hp : p.val < 2000 := p.isLt
  have hrow : ((cfg1.win 5).blk t).view.emb (ix2 p q) = ix2 (⟨t.val * 2000 + p.val, by omega⟩ : Fin 50000) q := by
    funext ax; apply Fin.ext
    match ax with
    | ⟨0, _⟩ => show win1_5.index t (0 : Fin 2) * 2000 + 1 * p.val = t.val * 2000 + p.val; omega
    | ⟨1, _⟩ => show win1_5.index t (1 : Fin 2) * 128 + 1 * q.val = q.val; omega
  show k1_pay1 (iblk1 V c 0 t) (iblk1 V c 1 t) (iblk1 V c 2 t) (iblk1 V c 3 t) (iblk1 V c 4 t) (ix2 p q)
    = Spec.normRows (V c main_v20) (V c main_v21) (V c main_v22) (V c main_v23) (V c main_v24)
        (((cfg1.win 5).blk t).view.emb (ix2 p q))
  rw [hrow]
  exact stored_eq_normRows _ _ _ _ _ _ _ _ _ _ p ⟨t.val * 2000 + p.val, by omega⟩
    (fun k => aggBlock_apply V c t p k _ rfl) (colBlock_apply V c t p _ rfl)
    (fun k => biasBlock_apply V c t k) (fun k => scaleBlock_apply V c t k) (fun k => shiftBlock_apply V c t k) q

/-- An index of the output array is in point `t`'s block iff each coordinate is in the block's range on its axis. -/
theorem mem_outBlock (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v25).slice (win1_5.rect t)).set ↔ _
  rw [View.set_slice_whole, Rect.mem_set_unit]
  exact Iff.rfl

/-- The 25 blocks of 2000 rows tile the 50000 rows: row `r` is in the block of point `r / 2000`, and every point
    writes back. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : (i 0).val / 2000 < cfg1.N := lt_of_lt_of_eq (by omega) N_1.symm
  refine ⟨⟨(i 0).val / 2000, hN⟩, flush1_5 _, ?_⟩
  obtain ⟨-, -, -, -, -, -, -, -, -, -, e0, e1⟩ := index_facts ⟨(i 0).val / 2000, hN⟩
  rw [mem_outBlock]
  intro a
  match a with
  | ⟨0, _⟩ =>
    show win1_5.index ⟨(i 0).val / 2000, hN⟩ (0 : Fin 2) * 2000 ≤ (i 0).val
      ∧ (i 0).val < win1_5.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win1_5.index ⟨(i 0).val / 2000, hN⟩ (1 : Fin 2) * 128 ≤ (i 1).val
      ∧ (i 1).val < win1_5.index ⟨(i 0).val / 2000, hN⟩ (1 : Fin 2) * 128 + 128
    rw [e1]
    omega

/-- The output array after the region, from the arrays as the region finds them. -/
theorem value (c : Dev nD) :
    ((dat1 V c).arrAt 5 cfg1.N : S50000x128.Idx → EReal)
      = Spec.normRows (V c main_v20) (V c main_v21) (V c main_v22) (V c main_v23) (V c main_v24) :=
  (dat1 V c).arrAt_eq_of_cover 5
    (Spec.normRows (V c main_v20) (V c main_v21) (V c main_v22) (V c main_v23) (V c main_v24))
    (fun t _ => flushed_eq V c t) covered

end Cert.KernelIdeal.Region1

end
-- ==== Proof.HostStages.lean ====
/-
  The host operations of the idealized kernel's program, named by what they compute, and what each region finds in
  its input arrays when it is entered.

  * `degNorm ids`: per node, `max(count, 1) ^ (-1/2)`, where `count` adds a one for every entry of `ids` that names
    the node (entries naming no node are dropped by the sum).
  * `wrapIdx ids`: each index, with `50000` added where it is negative, as a column.
  * `inRange ids`: per edge, whether the wrapped index lies in `[0, 49999]`.
  * `takeRows x ids`: row `e` is row `wrapIdx ids e` of `x` where `inRange ids e` holds, and the fill pattern elsewhere.
  * `aggregate msgs dst`: per node, the sum of the rows of `msgs` whose destination is the node.

  The first region is entered with the feature and weight arrays as launched and the out-degree normalisation as a
  column; the second with the aggregate of the taken rows of the first region's output, the in-degree normalisation as
  a column, and the three parameter vectors as one-row matrices.
-/
import proofs.«430459_j13271448945164_1_alg».proof.Proof.KernelResult
import Idealize.ShloMosaic.Lib.StableHlo.Run
import Idealize.ShloMosaic.PureOps.Ideal

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F]

/-- Per node, `max(count, 1) ^ (-1/2)` of the index array's counts. -/
def degNorm (ids : (⟨S800000, .i32⟩ : BufTy).Contents (Elt F)) : (⟨S50000, .f32⟩ : BufTy).Contents (Elt F) :=
  Host.powf
    (maximumf
      (Host.scatterAdd scatter_S50000_S800000x1_S800000_n_0_0_1
        (broadcastInDim S50000 ![] bcast_S_S50000 (constant S_ .f32 0x00000000#32))
        (broadcastInDim S800000x1 ![0] bcast_S800000_S800000x1_0 ids)
        (broadcastInDim S800000 ![] bcast_S_S800000 (constant S_ .f32 0x3F800000#32)))
      (broadcastInDim S50000 ![] bcast_S_S50000 (constant S_ .f32 0x3F800000#32)))
    (broadcastInDim S50000 ![] bcast_S_S50000 (constant S_ .f32 0xBF000000#32))

/-- Each index, with `50000` added where it is negative, as a column. -/
def wrapIdx (ids : (⟨S800000, .i32⟩ : BufTy).Contents (Elt F)) : (⟨S800000x1, .i32⟩ : BufTy).Contents (Elt F) :=
  broadcastInDim S800000x1 ![0] bcast_S800000_S800000x1_0
    (select (cmpi .slt ids (broadcastInDim S800000 ![] bcast_S_S800000 (constantI S_ 32 0#32)))
      (addi ids (broadcastInDim S800000 ![] bcast_S_S800000 (constantI S_ 32 50000#32))) ids)

/-- Per edge, whether an index column's entry lies in `[0, 49999]`. -/
def inRangeOf (col : (⟨S800000x1, .i32⟩ : BufTy).Contents (Elt F)) : (⟨S800000, .i1⟩ : BufTy).Contents (Elt F) :=
  Host.reduce IntOp.andi
    (andi
      (cmpi .sge col (broadcastInDim S800000x1 ![] bcast_S_S800000x1 (constantI S_ 32 0#32)))
      (cmpi .sle col
        (broadcastInDim S800000x1 ![0, 1] bcast_S1x1_S800000x1_0_1
          (broadcastInDim S1x1 ![1] bcast_S1_S1x1_1 (constantI S1 32 49999#32)))))
    (constantI S_ 1 1#1) reducesTo_S800000x1_S800000_d1 h_S_

/-- Per edge, whether the wrapped index lies in `[0, 49999]`. -/
def inRange (ids : (⟨S800000, .i32⟩ : BufTy).Contents (Elt F)) : (⟨S800000, .i1⟩ : BufTy).Contents (Elt F) :=
  inRangeOf (F := F) (wrapIdx (F := F) ids)

/-- Row `e` is row `col e` of `x` where `mask e` holds, the fill pattern elsewhere. -/
def takeAt (x : (⟨S50000x128, .f32⟩ : BufTy).Contents (Elt F)) (col : (⟨S800000x1, .i32⟩ : BufTy).Contents (Elt F))
    (mask : (⟨S800000, .i1⟩ : BufTy).Contents (Elt F)) : (⟨S800000x128, .f32⟩ : BufTy).Contents (Elt F) :=
  select (broadcastInDim S800000x128 ![0] bcast_S800000_S800000x128_0 mask)
    (Host.gather gather_S50000x128_S800000x1_S800000x128_1_0_n_n_0_1_1128 x col)
    (broadcastInDim S800000x128 ![] bcast_S_S800000x128 (constant S_ .f32 0x7FC00000#32))

/-- Row `e` is row `wrapIdx ids e` of `x` where the wrapped index is in range, the fill pattern elsewhere. -/
def takeRows (x : (⟨S50000x128, .f32⟩ : BufTy).Contents (Elt F)) (ids : (⟨S800000, .i32⟩ : BufTy).Contents (Elt F)) :
    (⟨S800000x128, .f32⟩ : BufTy).Contents (Elt F) :=
  takeAt (F := F) x (wrapIdx (F := F) ids) (inRange (F := F) ids)

/-- Per node, the sum of the rows whose destination is the node. -/
def aggregate (msgs : (⟨S800000x128, .f32⟩ : BufTy).Contents (Elt F)) (dst : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst) msgs

variable (m : (ℓ : Loc nD τ sig) → Buf (Elt F) ℓ) (ρ : Dev nD → PrngReg)

/-! ## The first region's entry: no host operation before it writes an argument -/

theorem entry0_features (c : Dev nD) : V1 m ρ c main_arg0 = m ((c : Thread nD τ).loc main_arg0) := by
  show StableHlo.after hostOps0 (W0 m ρ c) (Proc.devRef .tc main_arg0) = _
  after_results

theorem entry0_weights (c : Dev nD) : V1 m ρ c main_arg3 = m ((c : Thread nD τ).loc main_arg3) := by
  show StableHlo.after hostOps0 (W0 m ρ c) (Proc.devRef .tc main_arg3) = _
  after_results

/-- The out-degree normalisation, as a column. -/
theorem entry0_norm (c : Dev nD) :
    V1 m ρ c main_v15 = shapeCast S50000x1 (degNorm (F := F) (m ((c : Thread nD τ).loc main_arg1))) shapeCasts_S50000_S50000x1 := by
  show StableHlo.after hostOps0 (W0 m ρ c) (Proc.devRef .tc main_v15) = _
  after_results
  rfl

/-! ## Between the regions -/

/-- The first region's output array is what its pipeline leaves. -/
theorem exit0_out (c : Dev nD) : W2 m ρ c (Proc.devRef .tc main_v16) = (dat0 (V1 m ρ) c).arrAt 3 cfg0.N :=
  W2_arr m ρ c 3

/-- An array the first region does not own, and no host operation before it writes, is as launched after it. -/
theorem exit0_src (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results

/-- The first region leaves alone every array it does not own; before it, the in-degree normalisation is computed. -/
theorem exit0_inNorm (c : Dev nD) :
    W2 m ρ c (Proc.devRef .tc main_v14) = degNorm (F := F) (m ((c : Thread nD τ).loc main_arg2)) := by
  refine (W2_of_ne m ρ c main_v14 (by decide)).trans ?_
  show StableHlo.after hostOps0 (W0 m ρ c) (Proc.devRef .tc main_v14) = _
  after_results
  rfl

theorem exit0_dst (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results

theorem exit0_bias (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results

theorem exit0_gain (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results

theorem exit0_shift (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results

/-! ## The last stretch of host operations, from ANY contents `W`: the aggregate and the reshapes -/

variable (W : Valuation τ sig (Elt F))

theorem last_aggregate :
    StableHlo.after hostOps1_1 W (Proc.devRef .tc main_v20)
      = aggregate (F := F) (W (Proc.devRef .tc main_v17)) (W (Proc.devRef .tc main_arg2)) := by
  after_results
  rfl

theorem last_inNorm :
    StableHlo.after hostOps1_1 W (Proc.devRef .tc main_v21)
      = shapeCast S50000x1 (W (Proc.devRef .tc main_v14)) shapeCasts_S50000_S50000x1 := by
  after_results
  rfl

theorem last_bias :
    StableHlo.after hostOps1_1 W (Proc.devRef .tc main_v22)
      = shapeCast S1x128 (W (Proc.devRef .tc main_arg4)) shapeCasts_S128_S1x128 := by
  after_results
  rfl

theorem last_gain :
    StableHlo.after hostOps1_1 W (Proc.devRef .tc main_v23)
      = shapeCast S1x128 (W (Proc.devRef .tc main_arg5)) shapeCasts_S128_S1x128 := by
  after_results
  rfl

theorem last_shift :
    StableHlo.after hostOps1_1 W (Proc.devRef .tc main_v24)
      = shapeCast S1x128 (W (Proc.devRef .tc main_arg6)) shapeCasts_S128_S1x128 := by
  after_results
  rfl

end Cert.KernelIdeal.Stages

end
-- ==== Proof.Taken.lean ====
/-
  The rows the program takes from the first region's output: after the take's operations the taken-rows buffer holds
  `takeRows` of the first region's output array and the source indices, and the operations leave every buffer they do
  not write as it was.
-/
import proofs.«430459_j13271448945164_1_alg».proof.Proof.HostStages

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F]
variable (W : Valuation τ sig (Elt F))

/-! ## The take's operations in three runs

The first run wraps the indices into a column, the second tests the column against the array's rows, the third reads
the rows and fills in where the test fails. -/

/-- Operations run one list after another. -/
theorem after_append (a b : List (HloOp τ sig (Elt F))) (V : Valuation τ sig (Elt F)) :
    StableHlo.after (a ++ b) V = StableHlo.after b (StableHlo.after a V) := by
  induction a generalizing V with
  | nil => rfl
  | cons op a ih => exact ih (op.result V)

/-- The operations that wrap the indices: a negative index gets the row count added; the result as a column. -/
abbrev wrapOps : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S800000, .i32⟩) (broadcastInDim S800000 ![] bcast_S_S800000),
    StableHlo.TRef.binary (.of main_arg1 : StableHlo.TRef sig ⟨S800000, .i32⟩) (.of main_call0_v0 : StableHlo.TRef sig ⟨S800000, .i32⟩) (.of main_call0_v1 : StableHlo.TRef sig ⟨S800000, .i1⟩) (cmpi .slt),
    StableHlo.TRef.nullary (.of main_call0_c_0 : StableHlo.TRef sig ⟨S_, .i32⟩) (constantI S_ 32 50000#32),
    StableHlo.TRef.unary (.of main_call0_c_0 : StableHlo.TRef sig ⟨S_, .i32⟩) (.of main_call0_v2 : StableHlo.TRef sig ⟨S800000, .i32⟩) (broadcastInDim S800000 ![] bcast_S_S800000),
    StableHlo.TRef.binary (.of main_arg1 : StableHlo.TRef sig ⟨S800000, .i32⟩) (.of main_call0_v2 : StableHlo.TRef sig ⟨S800000, .i32⟩) (.of main_call0_v3 : StableHlo.TRef sig ⟨S800000, .i32⟩) addi,
    StableHlo.TRef.ternary (.of main_call0_v1 : StableHlo.TRef sig ⟨S800000, .i1⟩) (.of main_call0_v3 : StableHlo.TRef sig ⟨S800000, .i32⟩) (.of main_arg1 : StableHlo.TRef sig ⟨S800000, .i32⟩) (.of main_call0_v4 : StableHlo.TRef sig ⟨S800000, .i32⟩) select,
    StableHlo.TRef.unary main_call0_call0.v0 (.of main_call0_v5 : StableHlo.TRef sig ⟨S800000x1, .i32⟩) (broadcastInDim S800000x1 ![0] bcast_S800000_S800000x1_0) ]

/-- The operations that test the index column against `[0, 49999]`, edge by edge. -/
abbrev rangeOps : List (HloOp τ sig (Elt F)) :=
  [ StableHlo.TRef.nullary (.of main_call0_c_1 : StableHlo.TRef sig ⟨S1, .i32⟩) (constantI S1 32 49999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S800000x1, .i32⟩) (broadcastInDim S800000x1 ![] bcast_S_S800000x1),
    StableHlo.TRef.binary (.of main_call0_v5 : StableHlo.TRef sig ⟨S800000x1, .i32⟩) (.of main_call0_v6 : StableHlo.TRef sig ⟨S800000x1, .i32⟩) (.of main_call0_v7 : StableHlo.TRef sig ⟨S800000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S800000x1, .i32⟩) (broadcastInDim S800000x1 ![0, 1] bcast_S1x1_S800000x1_0_1),
    StableHlo.TRef.binary (.of main_call0_v5 : StableHlo.TRef sig ⟨S800000x1, .i32⟩) (.of main_call0_v9 : StableHlo.TRef sig ⟨S800000x1, .i32⟩) (.of main_call0_v10 : StableHlo.TRef sig ⟨S800000x1, .i1⟩) (cmpi .sle),
    StableHlo.TRef.binary (.of main_call0_v7 : StableHlo.TRef sig ⟨S800000x1, .i1⟩) (.of main_call0_v10 : StableHlo.TRef sig ⟨S800000x1, .i1⟩) (.of main_call0_v11 : StableHlo.TRef sig ⟨S800000x1, .i1⟩) andi,
    StableHlo.TRef.nullary (.of main_call0_c_3 : StableHlo.TRef sig ⟨S_, .i1⟩) (constantI S_ 1 1#1),
    StableHlo.TRef.binary (.of main_call0_v11 : StableHlo.TRef sig ⟨S800000x1, .i1⟩) (.of main_call0_c_3 : StableHlo.TRef sig ⟨S_, .i1⟩) (.of main_call0_v12 : StableHlo.TRef sig ⟨S800000, .i1⟩) (fun x v => Host.reduce IntOp.andi x v reducesTo_S800000x1_S800000_d1 h_S_) ]

/-- The operations that read the rows the column names and keep them where the test holds. -/
abbrev pickOps : List (HloOp τ sig (Elt F)) :=
  [ StableHlo.TRef.binary (.of main_v16 : StableHlo.TRef sig ⟨S50000x128, .f32⟩) (.of main_call0_v5 : StableHlo.TRef sig ⟨S800000x1, .i32⟩) (.of main_call0_v13 : StableHlo.TRef sig ⟨S800000x128, .f32⟩) (fun x i => Host.gather gather_S50000x128_S800000x1_S800000x128_1_0_n_n_0_1_1128 x i),
    StableHlo.TRef.unary (.of main_call0_v12 : StableHlo.TRef sig ⟨S800000, .i1⟩) (.of main_call0_v14 : StableHlo.TRef sig ⟨S800000x128, .i1⟩) (broadcastInDim S800000x128 ![0] bcast_S800000_S800000x128_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S800000x128, .f32⟩) (broadcastInDim S800000x128 ![] bcast_S_S800000x128),
    StableHlo.TRef.ternary (.of main_call0_v14 : StableHlo.TRef sig ⟨S800000x128, .i1⟩) (.of main_call0_v13 : StableHlo.TRef sig ⟨S800000x128, .f32⟩) (.of main_call0_v15 : StableHlo.TRef sig ⟨S800000x128, .f32⟩) (.of main_v17 : StableHlo.TRef sig ⟨S800000x128, .f32⟩) select ]

/-- The take's operations are the three runs in order. -/
theorem take_split : (hostOps1 : List (HloOp τ sig (Elt F))) = wrapOps ++ rangeOps ++ pickOps := rfl

/-! ## The first run: the wrapped index column -/

theorem wrap_col :
    StableHlo.after wrapOps W (Proc.devRef .tc main_call0_v5) = wrapIdx (F := F) (W (Proc.devRef .tc main_arg1)) := by
  after_results_simp
  simp only [cast_cast, cast_eq]
  rfl

theorem wrap_keeps_rows :
    StableHlo.after wrapOps W (Proc.devRef .tc main_v16) = W (Proc.devRef .tc main_v16) := by
  after_results_simp

/-! ## The second run: the range test of the column -/

theorem range_mask :
    StableHlo.after rangeOps W (Proc.devRef .tc main_call0_v12) = inRangeOf (F := F) (W (Proc.devRef .tc main_call0_v5)) := by
  after_results_simp
  simp only [cast_cast, cast_eq]
  rfl

theorem range_keeps_col :
    StableHlo.after rangeOps W (Proc.devRef .tc main_call0_v5) = W (Proc.devRef .tc main_call0_v5) := by
  after_results_simp

theorem range_keeps_rows :
    StableHlo.after rangeOps W (Proc.devRef .tc main_v16) = W (Proc.devRef .tc main_v16) := by
  after_results_simp

/-! ## The third run: the rows read and filled -/

theorem pick_rows :
    StableHlo.after pickOps W (Proc.devRef .tc main_v17)
      = takeAt (F := F) (W (Proc.devRef .tc main_v16)) (W (Proc.devRef .tc main_call0_v5)) (W (Proc.devRef .tc main_call0_v12)) := by
  after_results_simp
  simp only [cast_cast, cast_eq]
  rfl

/-! ## The three runs composed -/

/-- The taken rows, from ANY contents `W` before the take's operations. -/
theorem take_rows :
    StableHlo.after hostOps1 W (Proc.devRef .tc main_v17)
      = takeRows (F := F) (W (Proc.devRef .tc main_v16)) (W (Proc.devRef .tc main_arg1)) := by
  rw [take_split, after_append, after_append, pick_rows, range_mask, range_keeps_col, range_keeps_rows, wrap_col,
    wrap_keeps_rows]
  rfl

/-- The take's operations write none of the buffers the last stretch reads besides the taken rows. -/
theorem take_keeps (b : Ref sig .tc) (hb : b = main_arg2 ∨ b = main_arg4 ∨ b = main_arg5 ∨ b = main_arg6 ∨ b = main_v14) :
    StableHlo.after hostOps1 W (Proc.devRef .tc b) = W (Proc.devRef .tc b) := by
  rcases hb with rfl | rfl | rfl | rfl | rfl <;> after_results_simp

end Cert.KernelIdeal.Stages

end
-- ==== Proof.KernelCompose.lean ====
/-
  The idealized kernel's result as ONE function of its seven argument arrays.

  `kernelFn`: scale each row of `h · w` by the out-degree normalisation of the source indices; take the rows the source
  indices name (the fill pattern where an index is out of range) and sum them into their destination nodes; scale by
  the in-degree normalisation of the destination indices, add the bias, and layer-normalise each row.

  The program's run ends with the result buffer at the fold of its five segments. Read backwards: the second region
  leaves `Spec.normRows` of the arrays it finds; those are the aggregate of the taken rows, the in-degree normalisation
  reshaped to a column, and the three parameter vectors reshaped to rows; the taken rows are of the first region's
  output, which is `Spec.scaledProduct` of the arrays IT finds: the features and weights as launched and the
  out-degree normalisation reshaped to a column.
-/
import proofs.«430459_j13271448945164_1_alg».proof.Proof.Region0
import proofs.«430459_j13271448945164_1_alg».proof.Proof.Region1
import proofs.«430459_j13271448945164_1_alg».proof.Proof.Taken

set_option maxRecDepth 16384

noncomputable section

namespace Cert.KernelIdeal.Compose

open Cert.KernelIdeal Cert.KernelIdeal.Gen Cert.KernelIdeal.Stages Cert.GraphConvLN
open Idealize.ShloMosaic Idealize.ShloMosaic.TcCoe Idealize.ShloMosaic.ValueIdx Idealize.SL.Sem Idealize.ShloMosaic.StableHlo

/-- The first region's output from the argument arrays. -/
def scaledFeatures (h : (⟨S50000x512, .f32⟩ : BufTy).Contents (Elt Ideal)) (src : (⟨S800000, .i32⟩ : BufTy).Contents (Elt Ideal))
    (w : (⟨S512x128, .f32⟩ : BufTy).Contents (Elt Ideal)) : (⟨S50000x128, .f32⟩ : BufTy).Contents (Elt Ideal) :=
  Spec.scaledProduct h w (shapeCast S50000x1 (degNorm (F := Ideal) src) shapeCasts_S50000_S50000x1)

/-- The kernel's result from the argument arrays. -/
def kernelFn (h : (⟨S50000x512, .f32⟩ : BufTy).Contents (Elt Ideal)) (src dst : (⟨S800000, .i32⟩ : BufTy).Contents (Elt Ideal))
    (w : (⟨S512x128, .f32⟩ : BufTy).Contents (Elt Ideal)) (b g β : (⟨S128, .f32⟩ : BufTy).Contents (Elt Ideal)) :
    (⟨S50000x128, .f32⟩ : BufTy).Contents (Elt Ideal) :=
  Spec.normRows (aggregate (F := Ideal) (takeRows (F := Ideal) (scaledFeatures h src w) src) dst)
    (shapeCast S50000x1 (degNorm (F := Ideal) dst) shapeCasts_S50000_S50000x1)
    (shapeCast S1x128 b shapeCasts_S128_S1x128) (shapeCast S1x128 g shapeCasts_S128_S1x128) (shapeCast S1x128 β shapeCasts_S128_S1x128)

variable (m : (ℓ : Loc nD τ sig) → Buf (Elt Ideal) ℓ) (ρ : Dev nD → PrngReg)

/-- The first region's output array, from the launch memory. -/
theorem first_out (c : Dev nD) :
    W2 m ρ c (Proc.devRef .tc main_v16)
      = scaledFeatures (m ((c : Thread nD τ).loc main_arg0)) (m ((c : Thread nD τ).loc main_arg1)) (m ((c : Thread nD τ).loc main_arg3)) := by
  rw [exit0_out, Region0.value (V1 m ρ) c, entry0_features, entry0_weights, entry0_norm]
  rfl

/-- The result buffer after the run, from the launch memory. -/
theorem result_value (c : Dev nD) :
    W5 m ρ c (Proc.devRef .tc main_v25)
      = kernelFn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  have e20 : V4 m ρ c main_v20
      = aggregate (F := Ideal) (takeRows (F := Ideal) (W2 m ρ c (Proc.devRef .tc main_v16)) (W2 m ρ c (Proc.devRef .tc main_arg1)))
          (m ((c : Thread nD τ).loc main_arg2)) := by
    show StableHlo.after hostOps1_1 (StableHlo.after hostOps1 (W2 m ρ c)) (Proc.devRef .tc main_v20) = _
    rw [last_aggregate, take_rows, take_keeps _ main_arg2 (Or.inl rfl), exit0_dst]
  have e21 : V4 m ρ c main_v21 = shapeCast S50000x1 (degNorm (F := Ideal) (m ((c : Thread nD τ).loc main_arg2))) shapeCasts_S50000_S50000x1 := by
    show StableHlo.after hostOps1_1 (StableHlo.after hostOps1 (W2 m ρ c)) (Proc.devRef .tc main_v21) = _
    rw [last_inNorm, take_keeps _ main_v14 (Or.inr (Or.inr (Or.inr (Or.inr rfl)))), exit0_inNorm]
  have e22 : V4 m ρ c main_v22 = shapeCast S1x128 (m ((c : Thread nD τ).loc main_arg4)) shapeCasts_S128_S1x128 := by
    show StableHlo.after hostOps1_1 (StableHlo.after hostOps1 (W2 m ρ c)) (Proc.devRef .tc main_v22) = _
    rw [last_bias, take_keeps _ main_arg4 (Or.inr (Or.inl rfl)), exit0_bias]
  have e23 : V4 m ρ c main_v23 = shapeCast S1x128 (m ((c : Thread nD τ).loc main_arg5)) shapeCasts_S128_S1x128 := by
    show StableHlo.after hostOps1_1 (StableHlo.after hostOps1 (W2 m ρ c)) (Proc.devRef .tc main_v23) = _
    rw [last_gain, take_keeps _ main_arg5 (Or.inr (Or.inr (Or.inl rfl))), exit0_gain]
  have e24 : V4 m ρ c main_v24 = shapeCast S1x128 (m ((c : Thread nD τ).loc main_arg6)) shapeCasts_S128_S1x128 := by
    show StableHlo.after hostOps1_1 (StableHlo.after hostOps1 (W2 m ρ c)) (Proc.devRef .tc main_v24) = _
    rw [last_shift, take_keeps _ main_arg6 (Or.inr (Or.inr (Or.inr (Or.inl rfl)))), exit0_shift]
  rw [W5_arr m ρ c 5, Region1.value (V4 m ρ) c, e20, e21, e22, e23, e24, first_out, exit0_src]
  rfl

end Cert.KernelIdeal.Compose

end
-- ==== Proof.BridgeSame.lean ====
/-
  The two programs spell the same host operations over the same literal shapes. Their scatter and gather dimension
  records have the same fields; so the degree normalisation, the wrapped index column and the aggregate of gathered
  rows are, in both programs, the same functions of the index arrays.
-/
import proofs.«430459_j13271448945164_1_alg».proof.Proof.KernelCompose
import proofs.«430459_j13271448945164_1_alg».proof.Proof.Gen.ReferenceIdeal.Read

set_option maxRecDepth 16384

noncomputable section

namespace Cert.Bridge

open Cert.GraphConvLN Cert.KernelIdeal.Stages Cert.KernelIdeal.Compose Cert.ReferenceIdeal.Read
open Idealize.ShloMosaic Idealize.ShloMosaic.TcCoe Idealize.ShloMosaic.ValueIdx Idealize.SL.Sem

abbrev FeatArr := (⟨Cert.ReferenceIdeal.S50000x512, .f32⟩ : BufTy).Contents (Elt Ideal)
abbrev IdxArr := (⟨Cert.ReferenceIdeal.S800000, .i32⟩ : BufTy).Contents (Elt Ideal)
abbrev WeightArr := (⟨Cert.ReferenceIdeal.S512x128, .f32⟩ : BufTy).Contents (Elt Ideal)
abbrev ParamVec := (⟨Cert.ReferenceIdeal.S128, .f32⟩ : BufTy).Contents (Elt Ideal)
abbrev RowsArr := (⟨Cert.ReferenceIdeal.S50000x128, .f32⟩ : BufTy).Contents (Elt Ideal)

/-! ## The dimension records -/

theorem count_dims : Cert.KernelIdeal.scatter_S50000_S800000x1_S800000_n_0_0_1 = Cert.ReferenceIdeal.scatter_S50000_S800000x1_S800000_n_0_0_1 := rfl
theorem sum_dims : Cert.KernelIdeal.scatter_S50000x128_S800000x1_S800000x128_1_0_0_1 = Cert.ReferenceIdeal.scatter_S50000x128_S800000x1_S800000x128_1_0_0_1 := rfl
theorem take_dims : Cert.KernelIdeal.gather_S50000x128_S800000x1_S800000x128_1_0_n_n_0_1_1128 = Cert.ReferenceIdeal.gather_S50000x128_S800000x1_S800000x128_1_0_n_n_0_1_1128 := rfl

/-! ## The same functions -/

theorem degNorm_src (x1 : IdxArr) : degNorm (F := Ideal) x1 = val_main_v10 (F := Ideal) x1 := by
  unfold degNorm val_main_v10 val_main_v9 val_main_cst_3 val_main_v8 val_main_v7 val_main_cst_2 val_main_v3 val_main_v2 val_main_v1 val_main_cst_0 val_main_v0 val_main_cst
  rw [count_dims]

theorem degNorm_dst (x2 : IdxArr) : degNorm (F := Ideal) x2 = val_main_v14 (F := Ideal) x2 := by
  unfold degNorm val_main_v14 val_main_v13 val_main_cst_5 val_main_v12 val_main_v11 val_main_cst_4 val_main_v6 val_main_v5 val_main_v4 val_main_cst_1 val_main_v0 val_main_cst
  rw [count_dims]

theorem wrapIdx_eq (x1 : IdxArr) : wrapIdx (F := Ideal) x1 = val_main_v24 (F := Ideal) x1 := by
  unfold wrapIdx val_main_v24 val_main_v23 val_main_v22 val_main_v21 val_main_c_6 val_main_v20 val_main_v19 val_main_c
  rfl

/-- The aggregate of gathered rows: the same scatter of the same gather. -/
theorem aggregate_gather_eq (x : RowsArr) (x1 x2 : IdxArr) :
    aggregate (F := Ideal) (Host.gather Cert.KernelIdeal.gather_S50000x128_S800000x1_S800000x128_1_0_n_n_0_1_1128 x (wrapIdx (F := Ideal) x1)) x2
      = (Host.scatterAdd (F := Ideal) (φ := .f32) Cert.ReferenceIdeal.scatter_S50000x128_S800000x1_S800000x128_1_0_0_1 (val_main_v26 (F := Ideal)) (val_main_v27 (F := Ideal) x2)
          (Host.gather Cert.ReferenceIdeal.gather_S50000x128_S800000x1_S800000x128_1_0_n_n_0_1_1128 x (val_main_v24 (F := Ideal) x1)) : RowsArr) := by
  rw [wrapIdx_eq]
  unfold aggregate val_main_v26 val_main_cst_7 val_main_v27
  rw [sum_dims, take_dims]

/-- The three parameter rows are one broadcast. -/
theorem gain_row (x : ParamVec) : val_main_v53 (F := Ideal) x = val_main_v32 (F := Ideal) x := by
  unfold val_main_v53 val_main_v32; rfl
theorem shift_row (x : ParamVec) : val_main_v56 (F := Ideal) x = val_main_v32 (F := Ideal) x := by
  unfold val_main_v56 val_main_v32; rfl

end Cert.Bridge

end
-- ==== Proof.Laws.lean ====
/-
  Facts about the extended reals that the two programs' agreement rests on, stated over abstract index types and
  importing no program.

  * The degree normalisation is `max(deg, 1) ^ (-1/2)`. Whatever extended real `deg` is, the base is at least `1`, so it
    is never `⊥`; a `⊤` base to a negative exponent is `0`, and a real base gives a real power. The normalisation is
    therefore always a real number, with no assumption on the degree count.
  * The kernel scales the ROW of the product, `(∑ₖ aₖ bₖ) · c`; the reference scales the row of the left factor first,
    `∑ₖ (aₖ · c) · bₖ`. On the extended reals the two differ at infinities (`0 · ⊤` against `⊤ + ⊥`), and agree when
    every `aₖ`, `bₖ` and `c` is real: there it is distributivity in `ℝ`.
-/
import Idealize.ShloMosaic.PureOps.Ideal
import Mathlib.Data.EReal.Operations
import Mathlib.Algebra.BigOperators.Ring.Finset

noncomputable section

namespace Cert.GraphConvLN.Laws

open Idealize.ShloMosaic

/-- The f32 pattern of `1.0` is the real `1`. -/
theorem ofBits_one : Ideal.ofBits .f32 0x3F800000#32 = ((1 : ℝ) : EReal) := by
  simp [Ideal.ofBits, Ideal.ieee, -EReal.coe_mul]; norm_num

/-- The f32 pattern of `-0.5` is the real `-1/2`. -/
theorem ofBits_neg_half : Ideal.ofBits .f32 0xBF000000#32 = ((-(1 / 2) : ℝ) : EReal) := by
  simp [Ideal.ofBits, Ideal.ieee, -EReal.coe_mul, -EReal.coe_neg]; norm_num

/-- `max(d, 1) ^ y` is a real number for every extended real `d` and every negative real `y`. -/
theorem pow_max_one_real (d : EReal) (y : ℝ) (hy : y < 0) :
    ∃ r : ℝ, Ideal.pow (max d ((1 : ℝ) : EReal)) ((y : ℝ) : EReal) = (r : EReal) := by
  induction d using EReal.rec with
  | bot =>
    -- the base is `1`
    rw [max_eq_right bot_le]
    exact ⟨_, Ideal.pow_coe_coe (r := 1) y⟩
  | coe x =>
    -- a real base: the maximum is one of two reals, and a real to a real power is real
    rcases le_total ((x : ℝ) : EReal) ((1 : ℝ) : EReal) with h | h
    · rw [max_eq_right h]
      exact ⟨_, Ideal.pow_coe_coe (r := 1) y⟩
    · rw [max_eq_left h]
      exact ⟨_, Ideal.pow_coe_coe (r := x) y⟩
  | top =>
    -- `⊤` to a negative power is `0`
    rw [max_eq_left le_top, Ideal.pow_top]
    have h1 : ¬ (0 : EReal) < ((y : ℝ) : EReal) := by
      rw [not_lt]; exact_mod_cast hy.le
    have h2 : ((y : ℝ) : EReal) ≠ 0 := by
      exact_mod_cast hy.ne
    rw [if_neg h1, if_neg h2]
    exact ⟨0, rfl⟩

/-- A finite sum of reals, read in the extended reals, is the real sum. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Scaling the product's row is scaling the left factor's row, when every entry and the scale are real. -/
theorem sum_mul_scale {ι : Type*} [Fintype ι] (a b : ι → EReal) (c : EReal)
    (ha : ∀ k, ∃ r : ℝ, a k = (r : EReal)) (hb : ∀ k, ∃ r : ℝ, b k = (r : EReal)) (hc : ∃ r : ℝ, c = (r : EReal)) :
    (∑ k, a k * b k) * c = ∑ k, (a k * c) * b k := by
  choose ra hra using ha
  choose rb hrb using hb
  obtain ⟨rc, rfl⟩ := hc
  simp only [hra, hrb, ← EReal.coe_mul]
  rw [coe_sum, coe_sum, ← EReal.coe_mul]
  congr 1
  rw [Finset.sum_mul]
  exact Finset.sum_congr rfl fun k _ => by ring

end Cert.GraphConvLN.Laws

end
-- ==== Proof.LibTileSum.lean ====
/-
  Three readings at an entry, over the extended reals where a sum is involved.

  The host's sum of a `[T, C, D]` array over its leading axis, into a zero initial value, is at entry `(c, f)` the sum
  over `t` of the entries `(t, c, f)`. A vector reshaped to a one-row matrix reads, at `(0, f)`, the vector at `f`; reshaped
  to a one-column matrix it reads, at `(n, 0)`, the vector at `n`.
-/
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.Lib.TileSum

open Idealize.ShloMosaic Idealize.ShloMosaic.ValueIdx

variable {T C D N : Nat}

/-- Over result entry `(c, f)`, the source index with `t` inserted on the leading axis is `(t, c, f)`. -/
theorem lift_lead (h : (⟨3, ![T, C, D]⟩ : Shape).Reduces [0] ⟨2, ![C, D]⟩) (c : Fin C) (f : Fin D)
    (t : Fin ((⟨3, ![T, C, D]⟩ : Shape).size 0)) :
    h.lift (ix2 c f) t = ix3 (n0 := T) t c f := by
  funext a
  apply Fin.ext
  show h.liftVal (ix2 c f) t.val a = _
  unfold Shape.Reduces.liftVal
  match a with
  | ⟨0, _⟩ => simp
  | ⟨1, _⟩ => simp
  | ⟨2, _⟩ => simp

/-- The host's sum over the leading axis, from the zero initial value, at an entry. -/
theorem reduce_lead (h' : (⟨3, ![T, C, D]⟩ : Shape).ReducesTo [0] ⟨2, ![C, D]⟩)
    (h : (⟨3, ![T, C, D]⟩ : Shape).Reduces [0] ⟨2, ![C, D]⟩) (hu : 0 < (⟨0, ![]⟩ : Shape).numel)
    (X : FVec Ideal ⟨3, ![T, C, D]⟩ .f32) (c : Fin C) (f : Fin D) :
    Host.reduceAdd X (constant ⟨0, ![]⟩ .f32 0x00000000#32) h' hu (ix2 c f) = ∑ t : Fin T, X (ix3 t c f) := by
  show _ = ∑ t : Fin ((⟨3, ![T, C, D]⟩ : Shape).size 0), X (ix3 (n0 := T) t c f)
  rw [hostReduceAdd_apply, Ideal.hostReduceAdd_single h' h]
  show Ideal.ofBits .f32 0x00000000#32 + _ = _
  rw [Ideal.ofBits_zero_f32, zero_add]
  exact Finset.sum_congr rfl fun t _ => congrArg X (lift_lead h c f t)

/-- A vector as a one-row matrix, at `(0, f)`. -/
theorem cast_row {α : Type} (a : (⟨1, ![D]⟩ : Shape).Idx → α) (h : (⟨1, ![D]⟩ : Shape).ShapeCasts ⟨2, ![1, D]⟩) (f : Fin D) :
    shapeCast ⟨2, ![1, D]⟩ a h (ix2 0 f) = a (ix1 f) := by
  refine shapeCast_apply a h (ix2 0 f) (ix1 f) ?_
  rw [Shape.rowMajor_val_one, Shape.rowMajor_val_two]
  show f.val = (0 : Fin 1).val * D + f.val
  simp

/-- A vector as a one-column matrix, at `(n, 0)`. -/
theorem cast_col {α : Type} (a : (⟨1, ![N]⟩ : Shape).Idx → α) (h : (⟨1, ![N]⟩ : Shape).ShapeCasts ⟨2, ![N, 1]⟩) (n : Fin N) :
    shapeCast ⟨2, ![N, 1]⟩ a h (ix2 n 0) = a (ix1 n) := by
  refine shapeCast_apply a h (ix2 n 0) (ix1 n) ?_
  rw [Shape.rowMajor_val_one, Shape.rowMajor_val_two]
  show n.val = n.val * 1 + (0 : Fin 1).val
  simp

end Cert.Lib.TileSum

end
-- ==== Proof.BridgeParts.lean ====
/-
  The pieces on which the kernel's function and the reference's agree, each as an equality of whole arrays.

  * A vector reshaped to a column is the vector broadcast to a column, and a vector reshaped to a row is the vector
    broadcast to a row: entry `(r, 0)`, respectively `(0, j)`, is the vector's entry.
  * The scaled product. The kernel scales row `r` of `h · w` by `n[r]`; the reference scales row `r` of `h` by `n[r]`
    and then multiplies by `w`. With every entry of `h` and `w` real, and `n[r] = max(deg, 1)^(-1/2)` real whatever the
    degree count is, both are `∑ₖ h[r,k] · n[r] · w[k,j]` by distributivity in the reals.
-/
import proofs.«430459_j13271448945164_1_alg».proof.Proof.BridgeSame
import proofs.«430459_j13271448945164_1_alg».proof.Proof.Laws
import proofs.«430459_j13271448945164_1_alg».proof.Proof.LibTileSum

set_option maxRecDepth 16384

noncomputable section

namespace Cert.Bridge

open Cert.GraphConvLN Cert.KernelIdeal.Stages Cert.KernelIdeal.Compose Cert.ReferenceIdeal.Read
open Idealize.ShloMosaic Idealize.ShloMosaic.TcCoe Idealize.ShloMosaic.ValueIdx Idealize.SL.Sem

/-! ## Reshapes against broadcasts -/

/-- The in-degree normalisation as a column. -/
theorem norm_col_eq (x2 : IdxArr) (hc : (Cert.KernelIdeal.S50000 : Shape).ShapeCasts Cert.KernelIdeal.S50000x1) :
    shapeCast Cert.KernelIdeal.S50000x1 (degNorm (F := Ideal) x2) hc = val_main_v29 (F := Ideal) x2 := by
  funext i
  obtain ⟨r, z, rfl⟩ : ∃ (r : Fin 50000) (z : Fin 1), i = ix2 r z := ⟨i 0, i 1, eq_ix2 i⟩
  obtain rfl : z = 0 := Subsingleton.elim _ _
  rw [val_main_v29_apply, ← degNorm_dst]
  exact (Cert.Lib.TileSum.cast_col _ hc r).trans (congrArg (degNorm (F := Ideal) x2) (funext fun a => Fin.ext (by match a with | ⟨0, _⟩ => rfl)))

/-- A parameter vector as a row. -/
theorem param_row_eq (x : ParamVec) (hr : (Cert.KernelIdeal.S128 : Shape).ShapeCasts Cert.KernelIdeal.S1x128) :
    shapeCast Cert.KernelIdeal.S1x128 x hr = val_main_v32 (F := Ideal) x := by
  funext i
  obtain ⟨z, j, rfl⟩ : ∃ (z : Fin 1) (j : Fin 128), i = ix2 z j := ⟨i 0, i 1, eq_ix2 i⟩
  obtain rfl : z = 0 := Subsingleton.elim _ _
  rw [val_main_v32_apply]
  exact (Cert.Lib.TileSum.cast_row _ hr j).trans (congrArg x (funext fun a => Fin.ext (by match a with | ⟨0, _⟩ => rfl)))

/-! ## The scaled product -/

/-- The degree normalisation is a real number at every node. -/
theorem degNorm_real (x1 : IdxArr) (r : Fin 50000) : ∃ q : ℝ, degNorm (F := Ideal) x1 (ix1 r) = (q : EReal) := by
  -- read the normalisation at the node: the power of the larger of the count and one
  rw [degNorm_src, val_main_v10_apply, val_main_v8_apply, val_main_v7_apply, val_main_v9_apply, val_main_cst_2_apply,
    val_main_cst_3_apply]
  -- the count of the node's incidences, whatever extended real it is
  generalize val_main_v3 (F := Ideal) x1 (ix1 r) = d
  change ∃ q : ℝ, Ideal.pow (max d (Ideal.ofBits .f32 0x3F800000#32)) (Ideal.ofBits .f32 0xBF000000#32) = (q : EReal)
  rw [Laws.ofBits_one, Laws.ofBits_neg_half]
  exact Laws.pow_max_one_real _ _ (by norm_num)

/-- Scaling the product's rows is scaling the left factor's rows, for real features and weights. -/
theorem scaledFeatures_eq (x0 : FeatArr) (x1 : IdxArr) (x3 : WeightArr)
    (h0 : ∀ i, ∃ q : ℝ, x0 i = (q : EReal)) (h3 : ∀ i, ∃ q : ℝ, x3 i = (q : EReal)) :
    scaledFeatures x0 x1 x3 = val_main_v18 (F := Ideal) x0 x1 x3 := by
  funext i
  obtain ⟨r, j, rfl⟩ : ∃ (r : Fin 50000) (j : Fin 128), i = ix2 r j := ⟨i 0, i 1, eq_ix2 i⟩
  rw [val_main_v18_apply]
  simp only [val_main_v17_apply, val_main_v16_apply, val_main_v15_apply, ← degNorm_src]
  unfold scaledFeatures Spec.scaledProduct
  rw [Cert.Lib.TileSum.cast_col _ _ r]
  refine (Laws.sum_mul_scale (fun k : Fin 512 => x0 (ix2 r k)) (fun k : Fin 512 => x3 (ix2 k j)) _ (fun k => h0 _) (fun k => h3 _) (degNorm_real x1 r)).trans ?_
  refine Finset.sum_congr rfl fun k _ => ?_
  have el : lidx_main_v18 (ix2 r j) k = ix2 r k := funext fun a => Fin.ext (by match a with | ⟨0, _⟩ => rfl | ⟨1, _⟩ => rfl)
  have er : ridx_main_v18 (ix2 r j) k = ix2 k j := funext fun a => Fin.ext (by match a with | ⟨0, _⟩ => rfl | ⟨1, _⟩ => rfl)
  have en : idx_main_v15 (idx_main_v16 (ix2 r k)) = ix1 r := funext fun a => Fin.ext (by match a with | ⟨0, _⟩ => rfl)
  rw [el, er, en]
  rfl

end Cert.Bridge

end
-- ==== Proof.Decode.lean ====
/-
  What the precondition says, and what it buys.

  The precondition is a conjunction of `all`s: every entry of each float argument has absolute value below `+∞`, and
  every source index `s` satisfies `s ≥ 0` and `s < 50000` as signed 32-bit words. From it: every entry of the feature
  and weight arrays is a real number, and every source index is in bounds.

  For an index in bounds the wrap leaves it alone (it is not negative) and both range tests of the take hold
  (`s ≥ 0`; `s < 50000` is `s ≤ 49999`), so the take's mask is one at every edge and the taken rows are the gathered
  rows: the fill pattern is never selected.
-/
import proofs.«430459_j13271448945164_1_alg».proof.Proof.HostStages
import proofs.«430459_j13271448945164_1_alg».proof.Defs
import Idealize.ShloMosaic.Lib.ReduceAll
import Idealize.ShloMosaic.Lib.StableHlo.Predicate
import Idealize.ShloMosaic.PureOps.Ideal.Laws

set_option maxRecDepth 16384

noncomputable section

namespace Cert.KernelIdeal.Decode

open Cert.KernelIdeal Cert.KernelIdeal.Gen Cert.KernelIdeal.Stages
open Idealize.ShloMosaic Idealize.ShloMosaic.TcCoe Idealize.SL.Sem

/-- A source index in `[0, 50000)`, as the two signed compares the precondition prints. -/
def InBounds (a : BitVec 32) : Prop := IntOp.cmpi .sge a 0#32 = 1#1 ∧ IntOp.cmpi .slt a 50000#32 = 1#1

/-! ## Signed words in `[0, 50000)` -/

theorem toInt_zero : (0#32 : BitVec 32).toInt = 0 := by decide
theorem toInt_50000 : (50000#32 : BitVec 32).toInt = 50000 := by decide
theorem toInt_49999 : (49999#32 : BitVec 32).toInt = 49999 := by decide

/-- In bounds, read as a signed value: `0 ≤ a < 50000`. -/
theorem toInt_of_inBounds {a : BitVec 32} (h : InBounds a) : 0 ≤ a.toInt ∧ a.toInt < 50000 := by
  obtain ⟨h0, h1⟩ := h
  rw [IntOp.cmpi_sge, toInt_zero] at h0
  rw [IntOp.cmpi_slt, toInt_50000] at h1
  exact ⟨h0, h1⟩

/-- An index in bounds is not negative, so the wrap selects the index itself, whatever it would have added. -/
theorem wrap_of_inBounds {a : BitVec 32} (h : InBounds a) (b : BitVec 32) :
    Scalar.select (IntOp.cmpi .slt a 0#32) b a = a := by
  have hneg : ¬ IntOp.cmpi .slt a 0#32 = 1#1 := fun e => by
    rw [IntOp.cmpi_slt, toInt_zero] at e
    have := (toInt_of_inBounds h).1
    omega
  exact if_neg hneg

/-- An index in bounds passes both range tests of the take: `a ≥ 0`, and `a ≤ 49999` since `a < 50000`. -/
theorem rangeTests_of_inBounds {a : BitVec 32} (h : InBounds a) :
    IntOp.andi (IntOp.cmpi .sge a 0#32) (IntOp.cmpi .sle a 49999#32) = 1#1 := by
  refine IntOp.andi_eq_one.2 ⟨h.1, ?_⟩
  rw [IntOp.cmpi_sle, toInt_49999]
  have := (toInt_of_inBounds h).2
  omega

/-! ## An `and` over ones is one -/

/-- A left fold by `and` from one over entries that are all one is one. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_one f l fun n hn => h n (List.mem_cons_of_mem _ hn)

/-- So a reduction by `and`, started at one, of an array of ones is one at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun i _ => hx i

/-! ## The wrap, the mask and the take under the bounds -/

section Take
variable {F : FTy → Type} [FloatOps F]

/-- With every index in bounds the wrapped column is the indices themselves, as a column. -/
theorem wrapIdx_of_inBounds (ids : (⟨S800000, .i32⟩ : BufTy).Contents (Elt F)) (h : ∀ e, InBounds (ids e)) :
    wrapIdx (F := F) ids = broadcastInDim S800000x1 ![0] bcast_S800000_S800000x1_0 ids := by
  unfold wrapIdx
  refine congrArg (broadcastInDim (s := S800000) S800000x1 ![0] bcast_S800000_S800000x1_0) (funext fun e => ?_)
  exact wrap_of_inBounds (h e) _

/-- A column whose every entry is in bounds is in range at every edge. -/
theorem inRangeOf_of_inBounds (col : (⟨S800000x1, .i32⟩ : BufTy).Contents (Elt F)) (h : ∀ i, InBounds (col i))
    (e : S800000.Idx) : inRangeOf (F := F) col e = 1#1 := by
  unfold inRangeOf
  exact reduce_andi_of_all _ _ _ _ e rfl fun i => rangeTests_of_inBounds (h i)

/-- Where the mask is one at every edge the select never takes the fill: the taken rows are the gathered rows. -/
theorem takeAt_of_mask_one (x : (⟨S50000x128, .f32⟩ : BufTy).Contents (Elt F))
    (col : (⟨S800000x1, .i32⟩ : BufTy).Contents (Elt F)) (mask : (⟨S800000, .i1⟩ : BufTy).Contents (Elt F))
    (hm : ∀ e, mask e = 1#1) :
    takeAt (F := F) x col mask = Host.gather gather_S50000x128_S800000x1_S800000x128_1_0_n_n_0_1_1128 x col := by
  unfold takeAt
  funext j
  show Scalar.select (mask _) _ _ = _
  rw [hm]
  exact if_pos rfl

end Take

/-- With every source index in bounds the take's mask is one everywhere: the taken rows are the gathered rows. -/
theorem takeRows_of_inBounds {F : FTy → Type} [FloatOps F]
    (x : (⟨S50000x128, .f32⟩ : BufTy).Contents (Elt F)) (ids : (⟨S800000, .i32⟩ : BufTy).Contents (Elt F))
    (h : ∀ e, InBounds (ids e)) :
    takeRows (F := F) x ids
      = Host.gather gather_S50000x128_S800000x1_S800000x128_1_0_n_n_0_1_1128 x (wrapIdx (F := F) ids) := by
  have hcol : ∀ i, InBounds (wrapIdx (F := F) ids i) := fun i => by
    rw [wrapIdx_of_inBounds ids h]
    exact h _
  unfold takeRows
  exact takeAt_of_mask_one x _ _ fun e => inRangeOf_of_inBounds _ hcol e

variable [Cert.Pre_finite_inputs.Facts]

/-! ## The precondition read back -/

/-- The rank-0 result of an `all` has one index. -/
instance : Subsingleton Cert.Pre_finite_inputs.S_.Idx := ⟨fun a b => funext fun d => d.elim0⟩

/-- The word `0x7F800000` is `+∞`. -/
theorem ofBits_inf : Ideal.ofBits .f32 0x7F800000#32 = (⊤ : EReal) := by simp [Ideal.ofBits, Ideal.ieee]

/-- An extended real whose absolute value `max x (-x)` is below `+∞` is a real number: both infinities have
    absolute value `+∞`. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    unfold Ideal.cmp at h
    exact of_decide_eq_true ((StableHlo.Predicate.ofBool_eq_one_iff _).1 h)
  induction x using EReal.rec with
  | bot => exact absurd hlt (by simp)
  | coe r => exact ⟨r, rfl⟩
  | top => exact absurd hlt (by simp)

/-- The precondition, decoded: the features and the weights are real, the source indices in bounds. -/
theorem of_pre (m : (ℓ : Loc nD τ sig) → Buf (Elt Ideal) ℓ) (h : Cert.Pre_KernelIdeal m) (c : Dev nD) :
    (∀ i : S50000x512.Idx, ∃ r : ℝ, (m ((c.tc : Thread nD τ).loc main_arg0) i : EReal) = (r : EReal))
    ∧ (∀ i : S512x128.Idx, ∃ r : ℝ, (m ((c.tc : Thread nD τ).loc main_arg3) i : EReal) = (r : EReal))
    ∧ (∀ e : S800000.Idx, InBounds (m ((c.tc : Thread nD τ).loc main_arg1) e)) := by
  have e := congrFun (h c) (fun a => a.elim0 : Cert.Pre_finite_inputs.S_.Idx)
  unfold Cert.Pre_finite_inputs.fn Cert.Pre_finite_inputs.fn_part1 at e
  simp only [andi, IntOp.andi_eq_one] at e
  obtain ⟨⟨⟨⟨⟨⟨h3, h7⟩, -⟩, -⟩, -⟩, h26⟩, h30⟩ := e
  refine ⟨fun i => ?_, fun i => ?_, fun j => ⟨?_, ?_⟩⟩
  · exact real_of_abs_lt_inf _ (Host.reduce_andi_all _ _ _ _ _ h3 i)
  · exact real_of_abs_lt_inf _ (Host.reduce_andi_all _ _ _ _ _ h7 i)
  · exact Host.reduce_andi_all _ _ _ _ _ h26 j
  · exact Host.reduce_andi_all _ _ _ _ _ h30 j

end Cert.KernelIdeal.Decode

end
-- ==== Proof.RefNorm.lean ====
/-
  The reference's last stage is layer normalisation of the scaled, biased aggregate.

  Read at entry `(r, j)`, the reference's result is `d · rsqrt(v + ε) · γ[j] + β[j]` with `s[r,j] = agg[r,j] · n[r] + b[j]`,
  `μ[r] = (∑ⱼ s[r,j]) / 128`, `d = s[r,j] − μ[r]`, `v[r] = (∑ⱼ d²) / 128`: its host sums start from zero, its broadcasts of
  a column read the column at `(r, 0)`, its broadcasts of a row read the row at `(0, j)`. That is `Spec.normRows` of
  the aggregate, the in-degree normalisation column and the three parameter rows.
-/
import proofs.«430459_j13271448945164_1_alg».proof.Proof.Gen.ReferenceIdeal.Read
import proofs.«430459_j13271448945164_1_alg».proof.Proof.Spec
import Idealize.ShloMosaic.Lib.ValueIdx
import Idealize.ShloMosaic.PureOps.Ideal.Laws

set_option maxRecDepth 16384

noncomputable section

namespace Cert.ReferenceIdeal.Norm

open Cert.ReferenceIdeal Cert.ReferenceIdeal.Gen Cert.ReferenceIdeal.Read Cert.GraphConvLN
open Idealize.ShloMosaic Idealize.ShloMosaic.TcCoe Idealize.ShloMosaic.ValueIdx Idealize.SL.Sem

section Stages

variable (x0 : (⟨S50000x512, .f32⟩ : BufTy).Contents (Elt Ideal)) (x1 x2 : (⟨S800000, .i32⟩ : BufTy).Contents (Elt Ideal))
  (x3 : (⟨S512x128, .f32⟩ : BufTy).Contents (Elt Ideal)) (x4 x5 x6 : (⟨S128, .f32⟩ : BufTy).Contents (Elt Ideal))

/-! ## Where the broadcasts and the sums read

A column spread over the 128 features reads the column at `(r, 0)`; a row spread over the 50000 nodes reads the row at
`(0, j)`; a row sum written back as a column sums the entries `(r, k)`. -/

theorem normColumn_index (r : Fin 50000) (j : Fin 128) : idx_main_v30 (ix2 r j) = ix2 r (0 : Fin 1) := funext fun a => Fin.ext (by match a with | ⟨0, _⟩ => rfl | ⟨1, _⟩ => rfl)
theorem meanColumn_index (r : Fin 50000) (j : Fin 128) : idx_main_v39 (ix2 r j) = ix2 r (0 : Fin 1) := funext fun a => Fin.ext (by match a with | ⟨0, _⟩ => rfl | ⟨1, _⟩ => rfl)
theorem meanColumn_index' (r : Fin 50000) (j : Fin 128) : idx_main_v46 (ix2 r j) = ix2 r (0 : Fin 1) := funext fun a => Fin.ext (by match a with | ⟨0, _⟩ => rfl | ⟨1, _⟩ => rfl)
theorem scaleColumn_index (r : Fin 50000) (j : Fin 128) : idx_main_v51 (ix2 r j) = ix2 r (0 : Fin 1) := funext fun a => Fin.ext (by match a with | ⟨0, _⟩ => rfl | ⟨1, _⟩ => rfl)
theorem biasRow_index (r : Fin 50000) (j : Fin 128) : idx_main_v33 (ix2 r j) = ix2 (0 : Fin 1) j := funext fun a => Fin.ext (by match a with | ⟨0, _⟩ => rfl | ⟨1, _⟩ => rfl)
theorem gainRow_index (r : Fin 50000) (j : Fin 128) : idx_main_v54 (ix2 r j) = ix2 (0 : Fin 1) j := funext fun a => Fin.ext (by match a with | ⟨0, _⟩ => rfl | ⟨1, _⟩ => rfl)
theorem shiftRow_index (r : Fin 50000) (j : Fin 128) : idx_main_v57 (ix2 r j) = ix2 (0 : Fin 1) j := funext fun a => Fin.ext (by match a with | ⟨0, _⟩ => rfl | ⟨1, _⟩ => rfl)
theorem rowSum_index (r : Fin 50000) (k : Fin 128) :
    idx_main_v35 (idx_main_v36 (ix2 r (0 : Fin 1))) k = ix2 r k := funext fun a => Fin.ext (by match a with | ⟨0, _⟩ => rfl | ⟨1, _⟩ => rfl)
theorem squareSum_index (r : Fin 50000) (k : Fin 128) :
    idx_main_v42 (idx_main_v43 (ix2 r (0 : Fin 1))) k = ix2 r k := funext fun a => Fin.ext (by match a with | ⟨0, _⟩ => rfl | ⟨1, _⟩ => rfl)

/-! ## The stages at an entry -/

/-- The scaled, biased aggregate at `(r, j)`. -/
theorem scaled_apply (r : Fin 50000) (j : Fin 128) :
    val_main_v34 (F := Ideal) x0 x1 x2 x3 x4 (ix2 r j)
      = Spec.scaledRow (val_main_v28 (F := Ideal) x0 x1 x2 x3) (val_main_v29 (F := Ideal) x2) (val_main_v32 (F := Ideal) x4) r j := by
  rw [val_main_v34_apply, val_main_v31_apply, val_main_v30_apply, val_main_v33_apply, normColumn_index, biasRow_index]
  rfl

/-- The row mean, read at `(r, 0)`: the host's sum starts from zero. -/
theorem mean_apply (r : Fin 50000) :
    val_main_v38 (F := Ideal) x0 x1 x2 x3 x4 (ix2 r (0 : Fin 1))
      = Spec.rowMean (val_main_v28 (F := Ideal) x0 x1 x2 x3) (val_main_v29 (F := Ideal) x2) (val_main_v32 (F := Ideal) x4) r := by
  rw [val_main_v38_apply, val_main_v36_apply, val_main_v35_apply, val_main_v37_apply, val_main_cst_8_apply, val_main_cst_9_apply]
  simp only [rowSum_index, scaled_apply, Ideal.ofBits_def, Ideal.ofBits_zero_f32, zero_add, Ideal.hostDivf_def]
  rfl

/-- The centred entry at `(r, j)`, as the variance's sum reads it. -/
theorem centred_apply (r : Fin 50000) (j : Fin 128) :
    val_main_v40 (F := Ideal) x0 x1 x2 x3 x4 (ix2 r j)
      = Spec.centred (val_main_v28 (F := Ideal) x0 x1 x2 x3) (val_main_v29 (F := Ideal) x2) (val_main_v32 (F := Ideal) x4) r j := by
  rw [val_main_v40_apply, val_main_v39_apply, meanColumn_index, scaled_apply, mean_apply, Ideal.subf_def]
  unfold Spec.centred
  rfl

/-- The centred entry at `(r, j)`, as the result reads it: the same mean spread a second time. -/
theorem centred_apply' (r : Fin 50000) (j : Fin 128) :
    val_main_v47 (F := Ideal) x0 x1 x2 x3 x4 (ix2 r j)
      = Spec.centred (val_main_v28 (F := Ideal) x0 x1 x2 x3) (val_main_v29 (F := Ideal) x2) (val_main_v32 (F := Ideal) x4) r j := by
  rw [val_main_v47_apply, val_main_v46_apply, meanColumn_index', scaled_apply, mean_apply, Ideal.subf_def]
  unfold Spec.centred
  rfl

/-- The sum of the squared centred entries of row `r`, entry by entry. -/
theorem squares_sum (r : Fin 50000) :
    (∑ k : Fin 128, val_main_v41 (F := Ideal) x0 x1 x2 x3 x4 (idx_main_v42 (idx_main_v43 (ix2 r (0 : Fin 1))) k))
      = ∑ j : Fin 128, Spec.centred (val_main_v28 (F := Ideal) x0 x1 x2 x3) (val_main_v29 (F := Ideal) x2) (val_main_v32 (F := Ideal) x4) r j
          * Spec.centred (val_main_v28 (F := Ideal) x0 x1 x2 x3) (val_main_v29 (F := Ideal) x2) (val_main_v32 (F := Ideal) x4) r j :=
  Finset.sum_congr rfl fun k _ => by
    rw [squareSum_index, val_main_v41_apply, centred_apply, Ideal.mulf_def]

/-- The row variance, read at `(r, 0)`: the host's sum of squares starts from zero. -/
theorem var_apply (r : Fin 50000) :
    val_main_v45 (F := Ideal) x0 x1 x2 x3 x4 (ix2 r (0 : Fin 1))
      = Spec.rowVar (val_main_v28 (F := Ideal) x0 x1 x2 x3) (val_main_v29 (F := Ideal) x2) (val_main_v32 (F := Ideal) x4) r := by
  rw [val_main_v45_apply, val_main_v43_apply, val_main_v42_apply, val_main_v44_apply, val_main_cst_10_apply, val_main_cst_11_apply,
    Ideal.hostDivf_def, Ideal.ofBits_def, Ideal.ofBits_def, Ideal.ofBits_zero_f32, zero_add, squares_sum]
  rfl

/-- The reciprocal root of the variance plus `ε`, read at `(r, 0)`. -/
theorem scale_apply (r : Fin 50000) :
    val_main_v50 (F := Ideal) x0 x1 x2 x3 x4 (ix2 r (0 : Fin 1))
      = Ideal.rsqrt (Spec.rowVar (val_main_v28 (F := Ideal) x0 x1 x2 x3) (val_main_v29 (F := Ideal) x2) (val_main_v32 (F := Ideal) x4) r
          + Ideal.ofBits .f32 0x3727C5AC#32) := by
  rw [val_main_v50_apply, val_main_v49_apply, val_main_v48_apply, val_main_cst_12_apply, var_apply,
    Ideal.hostUnary_rsqrt_def, Ideal.addf_def, Ideal.ofBits_def]

/-- Layer normalisation at entry `(r, j)`. -/
theorem normRows_apply (a : Spec.SNH.Idx → EReal) (n : Spec.SN1.Idx → EReal) (b g β : Spec.S1H.Idx → EReal)
    (r : Fin 50000) (j : Fin 128) :
    Spec.normRows a n b g β (ix2 r j)
      = Spec.centred a n b r j * Ideal.rsqrt (Spec.rowVar a n b r + Ideal.ofBits .f32 0x3727C5AC#32)
          * g (ix2 (0 : Fin 1) j) + β (ix2 (0 : Fin 1) j) := rfl

end Stages

/-- The reference's result is the layer normalisation of its aggregate's scaled, biased rows. -/
theorem result_eq (x0 : (⟨S50000x512, .f32⟩ : BufTy).Contents (Elt Ideal)) (x1 x2 : (⟨S800000, .i32⟩ : BufTy).Contents (Elt Ideal))
    (x3 : (⟨S512x128, .f32⟩ : BufTy).Contents (Elt Ideal)) (x4 x5 x6 : (⟨S128, .f32⟩ : BufTy).Contents (Elt Ideal)) :
    val_main_v58 (F := Ideal) x0 x1 x2 x3 x4 x5 x6
      = Spec.normRows (val_main_v28 (F := Ideal) x0 x1 x2 x3) (val_main_v29 (F := Ideal) x2)
          (val_main_v32 (F := Ideal) x4) (val_main_v53 (F := Ideal) x5) (val_main_v56 (F := Ideal) x6) := by
  funext i
  obtain ⟨r, j, rfl⟩ : ∃ (r : Fin 50000) (j : Fin 128), i = ix2 r j := ⟨i 0, i 1, eq_ix2 i⟩
  rw [val_main_v58_apply, val_main_v55_apply, val_main_v52_apply, val_main_v51_apply, val_main_v54_apply, val_main_v57_apply,
    scaleColumn_index, gainRow_index, shiftRow_index, centred_apply', scale_apply, Ideal.addf_def, Ideal.mulf_def,
    Ideal.mulf_def, normRows_apply]

end Cert.ReferenceIdeal.Norm

end
-- ==== Proof.Bridge.lean ====
/-
  The kernel's function of the argument arrays is the reference's, when the features and the weights are real and
  every source index is in bounds.

  Both end in the same layer normalisation of the same scaled, biased aggregate. The aggregates agree because the
  rows taken are the rows gathered (no index is out of range, so the fill pattern is never selected), gathered from
  arrays that agree (scaling the product's rows is scaling the left factor's rows, for real entries and a real
  normalisation), at the same wrapped indices, and summed into the same destinations. The normalisation column and
  the three parameter rows are reshapes on one side and broadcasts on the other: the same arrays.
-/
import proofs.«430459_j13271448945164_1_alg».proof.Proof.BridgeParts
import proofs.«430459_j13271448945164_1_alg».proof.Proof.Decode
import proofs.«430459_j13271448945164_1_alg».proof.Proof.RefNorm

set_option maxRecDepth 16384

noncomputable section

namespace Cert.Bridge

open Cert.GraphConvLN Cert.KernelIdeal.Stages Cert.KernelIdeal.Compose Cert.ReferenceIdeal.Read
open Idealize.ShloMosaic Idealize.ShloMosaic.TcCoe Idealize.ShloMosaic.ValueIdx Idealize.SL.Sem

/-- The two programs compute the same array. -/
theorem kernelFn_eq (x0 : FeatArr) (x1 x2 : IdxArr) (x3 : WeightArr) (x4 x5 x6 : ParamVec)
    (h0 : ∀ i, ∃ q : ℝ, x0 i = (q : EReal)) (h3 : ∀ i, ∃ q : ℝ, x3 i = (q : EReal))
    (hb : ∀ e, Cert.KernelIdeal.Decode.InBounds (x1 e)) :
    kernelFn x0 x1 x2 x3 x4 x5 x6 = val_main_v58 (F := Ideal) x0 x1 x2 x3 x4 x5 x6 := by
  rw [Cert.ReferenceIdeal.Norm.result_eq, gain_row, shift_row]
  unfold kernelFn
  rw [Cert.KernelIdeal.Decode.takeRows_of_inBounds _ _ hb, scaledFeatures_eq x0 x1 x3 h0 h3, aggregate_gather_eq,
    norm_col_eq, param_row_eq x4, param_row_eq x5, param_row_eq x6]
  unfold val_main_v28 val_main_v25
  rfl

end Cert.Bridge

end
-- ==== Proof.lean ====
/-
  A two-stage graph convolution with layer normalisation, against its plain reference, over the extended reals.

  Both programs count each node's out- and in-degree from the source and destination indices and form
  `max(deg, 1)^(-1/2)`. The kernel multiplies the features by the weights and THEN scales each row by the out-degree
  normalisation; the reference scales the features' rows FIRST. Both then take the rows the source indices name, sum
  them into their destination nodes, scale by the in-degree normalisation, add the bias and layer-normalise each row,
  with the same literals.

  The statement carries, beside finiteness of the float arguments, that every source index lies in `[0, 50000)`:
  outside it the reference indexes its array out of range, and the kernel's take fills such rows with a NaN pattern.
  Under it the take's mask is one everywhere and the fill is never read. Finiteness of the features and the weights is
  what distributivity needs; the normalisation is a real number whatever the degree count is.

  The frames of the two kernel programs are the generated frame certificates; the reference's frame is its generated
  run with the result dropped; the idealization rewrote nothing. The value claim: the kernel's run ends with its result
  buffer at the fold of its five segments, which is one function of the argument arrays (the two regions each leave
  one whole-array function of what they find; the host operations between them are read back); the reference's run ends
  at its own composed term; the two are the same array.
-/
import proofs.«430459_j13271448945164_1_alg».proof.Defs
import proofs.«430459_j13271448945164_1_alg».proof.Proof.Gen.Kernel
import proofs.«430459_j13271448945164_1_alg».proof.Proof.Gen.Kernel.Skeleton
import proofs.«430459_j13271448945164_1_alg».proof.Proof.Gen.Kernel.Launch
import proofs.«430459_j13271448945164_1_alg».proof.Proof.Gen.Kernel.Points
import proofs.«430459_j13271448945164_1_alg».proof.Proof.Gen.Kernel.Frame
import proofs.«430459_j13271448945164_1_alg».proof.Proof.Gen.KernelIdeal
import proofs.«430459_j13271448945164_1_alg».proof.Proof.Gen.KernelIdeal.Skeleton
import proofs.«430459_j13271448945164_1_alg».proof.Proof.Gen.KernelIdeal.Launch
import proofs.«430459_j13271448945164_1_alg».proof.Proof.Gen.KernelIdeal.Points
import proofs.«430459_j13271448945164_1_alg».proof.Proof.Gen.KernelIdeal.Frame
import proofs.«430459_j13271448945164_1_alg».proof.Proof.Gen.ReferenceIdeal
import proofs.«430459_j13271448945164_1_alg».proof.Proof.Gen.ReferenceIdeal.Run
import proofs.«430459_j13271448945164_1_alg».proof.Proof.Gen.ReferenceIdeal.Read
import proofs.«430459_j13271448945164_1_alg».proof.Proof.Gen.Pre_finite_inputs
import proofs.«430459_j13271448945164_1_alg».proof.Proof.Bridge
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end, with the same result array. -/
theorem algebraic : Cert.algebraic_KernelIdeal_ReferenceIdeal := by
  intro m ρ m' ρ' hpre hagree
  refine ⟨fun c => Cert.KernelIdeal.Compose.kernelFn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · -- the kernel's run, its result buffer read through the segments' fold
    exact (θ_run Cert.KernelIdeal.defs _ _).mono
      (fun r h c => ⟨(h c).1.trans (Cert.KernelIdeal.Compose.result_value m ρ c), (h c).2⟩)
      (Cert.KernelIdeal.Result.run_result m ρ)
  · -- the reference's run, its composed term the same array
    refine (θ_run Cert.ReferenceIdeal.defs _ _).mono (fun r h c => ⟨(h c).1.trans ?_, (h c).2⟩)
      (Cert.ReferenceIdeal.Value.run (F := Ideal) m' ρ')
    obtain ⟨h0, h3, hb⟩ := Cert.KernelIdeal.Decode.of_pre m hpre c
    obtain ⟨e0, e1, e2, e3, e4, e5, e6⟩ := hagree c
    rw [Cert.ReferenceIdeal.Read.val_main_v58_eq, e0, e1, e2, e3, e4, e5, e6]
    exact (Cert.Bridge.kernelFn_eq _ _ _ _ _ _ _ h0 h3 hb).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
